-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x65 : Shape := ⟨2, ![262144, 65]⟩
abbrev S16 : Shape := ⟨1, ![16]⟩
abbrev S128x65 : Shape := ⟨2, ![128, 65]⟩
abbrev S128 : Shape := ⟨1, ![128]⟩
abbrev S64x128 : Shape := ⟨2, ![64, 128]⟩
abbrev S64 : Shape := ⟨1, ![64]⟩
abbrev S256x64 : Shape := ⟨2, ![256, 64]⟩
abbrev S256 : Shape := ⟨1, ![256]⟩
abbrev S262144x1 : Shape := ⟨2, ![262144, 1]⟩
abbrev S262144 : Shape := ⟨1, ![262144]⟩
abbrev S_ : Shape := ⟨0, ![]⟩

class Facts : Prop where
  slices_S262144x65_S262144x1_0_64 : S262144x65.Slices ![0, 64] S262144x1
  shapeCasts_S262144x1_S262144 : S262144x1.ShapeCasts S262144
  bcast_S_S262144x65 : S_.BroadcastsInDim S262144x65 (![] : Fin 0 → Fin S262144x65.rank)
  reducesTo_S262144x65_S_d0_1 : S262144x65.ReducesTo [0, 1] S_
  h_S_ : 0 < S_.numel
  bcast_S_S128x65 : S_.BroadcastsInDim S128x65 (![] : Fin 0 → Fin S128x65.rank)
  reducesTo_S128x65_S_d0_1 : S128x65.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S262144 : S_.BroadcastsInDim S262144 (![] : Fin 0 → Fin S262144.rank)
  reducesTo_S262144_S_d0 : S262144.ReducesTo [0] S_

variable [Facts]

def fn_part2 {F : FTy → Type} [FloatOps F] (main_v2 : IVec S262144 32) (main_v31 : IVec S_ 1) (main_v34 : IVec S256 1) : IVec S_ 1 :=
  let main_c_11 : IVec S_ 1 := constantI S_ 1 1#1
  let main_v35 : IVec S_ 1 := (fun x v => Host.reduce IntOp.andi x v reducesTo_S256_S_d0 h_S_) main_v34 main_c_11
  let main_v36 : IVec S_ 1 := andi main_v31 main_v35
  let main_c_12 : IVec S_ 32 := constantI S_ 32 0#32
  let main_v37 : IVec S262144 32 := broadcastInDim S262144 ![] bcast_S_S262144 main_c_12
  let main_v38 : IVec S262144 1 := cmpi .sge main_v2 main_v37
  let main_c_13 : IVec S_ 1 := constantI S_ 1 1#1
  let main_v39 : IVec S_ 1 := (fun x v => Host.reduce IntOp.andi x v reducesTo_S262144_S_d0 h_S_) main_v38 main_c_13
  let main_v40 : IVec S_ 1 := andi main_v36 main_v39
  let main_c_14 : IVec S_ 32 := constantI S_ 32 16#32
  let main_v41 : IVec S262144 32 := broadcastInDim S262144 ![] bcast_S_S262144 main_c_14
  let main_v42 : IVec S262144 1 := cmpi .slt main_v2 main_v41
  let main_c_15 : IVec S_ 1 := constantI S_ 1 1#1
  let main_v43 : IVec S_ 1 := (fun x v => Host.reduce IntOp.andi x v reducesTo_S262144_S_d0 h_S_) main_v42 main_c_15
  let main_v44 : IVec S_ 1 := andi main_v40 main_v43
  main_v44

def fn_part1 {F : FTy → Type} [FloatOps F] (main_arg5 : FVec F S64 .f32) (main_arg6 : FVec F S256x64 .f32) (main_arg7 : FVec F S256 .f32) (main_v2 : IVec S262144 32) (main_v16 : IVec S_ 1) (main_v17 : FVec F S64x128 .f32) : IVec S_ 1 :=
  let main_cst_4 : FVec F S_ .f32 := constant S_ .f32 0x7F800000#32
  let main_v18 : FVec F S64x128 .f32 := broadcastInDim S64x128 ![] bcast_S_S64x128 main_cst_4
  let main_v19 : IVec S64x128 1 := cmpf .olt main_v17 main_v18
  let main_c_5 : IVec S_ 1 := constantI S_ 1 1#1
  let main_v20 : IVec S_ 1 := (fun x v => Host.reduce IntOp.andi x v reducesTo_S64x128_S_d0_1 h_S_) main_v19 main_c_5
  let main_v21 : IVec S_ 1 := andi main_v16 main_v20
  let main_v22 : FVec F S64 .f32 := Host.absf main_arg5
  let main_cst_6 : FVec F S_ .f32 := constant S_ .f32 0x7F800000#32
  let main_v23 : FVec F S64 .f32 := broadcastInDim S64 ![] bcast_S_S64 main_cst_6
  let main_v24 : IVec S64 1 := cmpf .olt main_v22 main_v23
  let main_c_7 : IVec S_ 1 := constantI S_ 1 1#1
  let main_v25 : IVec S_ 1 := (fun x v => Host.reduce IntOp.andi x v reducesTo_S64_S_d0 h_S_) main_v24 main_c_7
  let main_v26 : IVec S_ 1 := andi main_v21 main_v25
  let main_v27 : FVec F S256x64 .f32 := Host.absf main_arg6
  let main_cst_8 : FVec F S_ .f32 := constant S_ .f32 0x7F800000#32
  let main_v28 : FVec F S256x64 .f32 := broadcastInDim S256x64 ![] bcast_S_S256x64 main_cst_8
  let main_v29 : IVec S256x64 1 := cmpf .olt main_v27 main_v28
  let main_c_9 : IVec S_ 1 := constantI S_ 1 1#1
  let main_v30 : IVec S_ 1 := (fun x v => Host.reduce IntOp.andi x v reducesTo_S256x64_S_d0_1 h_S_) main_v29 main_c_9
  let main_v31 : IVec S_ 1 := andi main_v26 main_v30
  let main_v32 : FVec F S256 .f32 := Host.absf main_arg7
  let main_cst_10 : FVec F S_ .f32 := constant S_ .f32 0x7F800000#32
  let main_v33 : FVec F S256 .f32 := broadcastInDim S256 ![] bcast_S_S256 main_cst_10
  let main_v34 : IVec S256 1 := cmpf .olt main_v32 main_v33
  fn_part2 (F := F) main_v2 main_v31 main_v34

def fn {F : FTy → Type} [FloatOps F] (main_arg0 : FVec F S262144x65 .f32) (main_arg1 : IVec S16 32) (main_arg2 : FVec F S128x65 .f32) (main_arg3 : FVec F S128 .f32) (main_arg4 : FVec F S64x128 .f32) (main_arg5 : FVec F S64 .f32) (main_arg6 : FVec F S256x64 .f32) (main_arg7 : FVec F S256 .f32) : IVec S_ 1 :=
  let main_v0 : FVec F S262144x1 .f32 := (extractStridedSlice S262144x1 ![0, 64] · slices_S262144x65_S262144x1_0_64) main_arg0
  let main_v1 : FVec F S262144 .f32 := shapeCast S262144 main_v0 shapeCasts_S262144x1_S262144
  let main_v2 : IVec S262144 32 := fptosi 32 main_v1
  let main_v3 : FVec F S262144x65 .f32 := Host.absf main_arg0
  let main_cst : FVec F S_ .f32 := constant S_ .f32 0x7F800000#32
  let main_v4 : FVec F S262144x65 .f32 := broadcastInDim S262144x65 ![] bcast_S_S262144x65 main_cst
  let main_v5 : IVec S262144x65 1 := cmpf .olt main_v3 main_v4
  let main_c : IVec S_ 1 := constantI S_ 1 1#1
  let main_v6 : IVec S_ 1 := (fun x v => Host.reduce IntOp.andi x v reducesTo_S262144x65_S_d0_1 h_S_) main_v5 main_c
  let main_v7 : FVec F S128x65 .f32 := Host.absf main_arg2
  let main_cst_0 : FVec F S_ .f32 := constant S_ .f32 0x7F800000#32
  let main_v8 : FVec F S128x65 .f32 := broadcastInDim S128x65 ![] bcast_S_S128x65 main_cst_0
  let main_v9 : IVec S128x65 1 := cmpf .olt main_v7 main_v8
  let main_c_1 : IVec S_ 1 := constantI S_ 1 1#1
  let main_v10 : IVec S_ 1 := (fun x v => Host.reduce IntOp.andi x v reducesTo_S128x65_S_d0_1 h_S_) main_v9 main_c_1
  let main_v11 : IVec S_ 1 := andi main_v6 main_v10
  let main_v12 : FVec F S128 .f32 := Host.absf main_arg3
  let main_cst_2 : FVec F S_ .f32 := constant S_ .f32 0x7F800000#32
  let main_v13 : FVec F S128 .f32 := broadcastInDim S128 ![] bcast_S_S128 main_cst_2
  let main_v14 : IVec S128 1 := cmpf .olt main_v12 main_v13
  let main_c_3 : IVec S_ 1 := constantI S_ 1 1#1
  let main_v15 : IVec S_ 1 := (fun x v => Host.reduce IntOp.andi x v reducesTo_S128_S_d0 h_S_) main_v14 main_c_3
  let main_v16 : IVec S_ 1 := andi main_v11 main_v15
  let main_v17 : FVec F S64x128 .f32 := Host.absf main_arg4
  fn_part1 (F := F) main_arg5 main_arg6 main_arg7 main_v2 main_v16 main_v17
-- ==== Kernel.lean ====
abbrev S262144x65 : Shape := ⟨2, ![262144, 65]⟩
abbrev S16 : Shape := ⟨1, ![16]⟩
abbrev S128x65 : Shape := ⟨2, ![128, 65]⟩
abbrev S128 : Shape := ⟨1, ![128]⟩
abbrev S64x128 : Shape := ⟨2, ![64, 128]⟩
abbrev S64 : Shape := ⟨1, ![64]⟩
abbrev S256x64 : Shape := ⟨2, ![256, 64]⟩
abbrev S256 : Shape := ⟨1, ![256]⟩
abbrev S1x128 : Shape := ⟨2, ![1, 128]⟩
abbrev S1x64 : Shape := ⟨2, ![1, 64]⟩
abbrev S1x256 : Shape := ⟨2, ![1, 256]⟩
abbrev S1x16 : Shape := ⟨2, ![1, 16]⟩
abbrev S65x128 : Shape := ⟨2, ![65, 128]⟩
abbrev S128x64 : Shape := ⟨2, ![128, 64]⟩
abbrev S64x256 : Shape := ⟨2, ![64, 256]⟩
abbrev S262144x256 : Shape := ⟨2, ![262144, 256]⟩
abbrev S4096x65 : Shape := ⟨2, ![4096, 65]⟩
abbrev S4096x256 : Shape := ⟨2, ![4096, 256]⟩
abbrev S4096x1 : Shape := ⟨2, ![4096, 1]⟩
abbrev S4096x16 : Shape := ⟨2, ![4096, 16]⟩
abbrev S4096 : Shape := ⟨1, ![4096]⟩
abbrev S4096x128 : Shape := ⟨2, ![4096, 128]⟩
abbrev S4096x64 : Shape := ⟨2, ![4096, 64]⟩
abbrev S_ : Shape := ⟨0, ![]⟩

abbrev nBuf : Space → Nat
  | .hbm => 25
  | .vmem => 13
  | .smem => 0
  | _ => 0

abbrev bufTy : (tb : Table) → Fin (tcTables nBuf tb) → BufTy
  | .hbm, ⟨0, _⟩ => ⟨S262144x65, .f32⟩
  | .hbm, ⟨1, _⟩ => ⟨S16, .i32⟩
  | .hbm, ⟨2, _⟩ => ⟨S128x65, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S256x64, .f32⟩
  | .hbm, ⟨7, _⟩ => ⟨S256, .f32⟩
  | .hbm, ⟨8, _⟩ => ⟨S1x128, .f32⟩
  | .hbm, ⟨9, _⟩ => ⟨S1x64, .f32⟩
  | .hbm, ⟨10, _⟩ => ⟨S1x256, .f32⟩
  | .hbm, ⟨11, _⟩ => ⟨S16, .f32⟩
  | .hbm, ⟨12, _⟩ => ⟨S1x16, .f32⟩
  | .hbm, ⟨13, _⟩ => ⟨S128x65, .bf16⟩
  | .hbm, ⟨14, _⟩ => ⟨S65x128, .bf16⟩
  | .hbm, ⟨15, _⟩ => ⟨S64x128, .bf16⟩
  | .hbm, ⟨16, _⟩ => ⟨S128x64, .bf16⟩
  | .hbm, ⟨17, _⟩ => ⟨S256x64, .bf16⟩
  | .hbm, ⟨18, _⟩ => ⟨S64x256, .bf16⟩
  | .hbm, ⟨19, _⟩ => ⟨S262144x256, .f32⟩
  | .hbm, ⟨20, _⟩ => ⟨S262144x256, .i32⟩
  | .hbm, ⟨21, _⟩ => ⟨S_, .i32⟩
  | .hbm, ⟨22, _⟩ => ⟨S262144x256, .i32⟩
  | .hbm, ⟨23, _⟩ => ⟨S262144x256, .i1⟩
  | .hbm, ⟨24, _⟩ => ⟨S262144x256, .i1⟩
  | .local _ .vmem, ⟨0, _⟩ => ⟨S4096x65, .f32⟩
  | .local _ .vmem, ⟨1, _⟩ => ⟨S4096x65, .f32⟩
  | .local _ .vmem, ⟨2, _⟩ => ⟨S1x16, .f32⟩
  | .local _ .vmem, ⟨3, _⟩ => ⟨S65x128, .bf16⟩
  | .local _ .vmem, ⟨4, _⟩ => ⟨S1x128, .f32⟩
  | .local _ .vmem, ⟨5, _⟩ => ⟨S128x64, .bf16⟩
  | .local _ .vmem, ⟨6, _⟩ => ⟨S1x64, .f32⟩
  | .local _ .vmem, ⟨7, _⟩ => ⟨S64x256, .bf16⟩
  | .local _ .vmem, ⟨8, _⟩ => ⟨S1x256, .f32⟩
  | .local _ .vmem, ⟨9, _⟩ => ⟨S4096x256, .f32⟩
  | .local _ .vmem, ⟨10, _⟩ => ⟨S4096x256, .f32⟩
  | .local _ .vmem, ⟨11, _⟩ => ⟨S4096x256, .i32⟩
  | .local _ .vmem, ⟨12, _⟩ => ⟨S4096x256, .i32⟩
  | _, _ => ⟨S262144x65, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S65x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x256 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S128_S1x128 : S128.ShapeCasts S1x128
  shapeCasts_S64_S1x64 : S64.ShapeCasts S1x64
  shapeCasts_S256_S1x256 : S256.ShapeCasts S1x256
  shapeCasts_S16_S1x16 : S16.ShapeCasts S1x16
  bitsLt_bf16_f32 : FTy.bits .bf16 < FTy.bits .f32
  transposes_S128x65_S65x128_1_0 : S128x65.Transposes [1, 0] S65x128
  transposes_S64x128_S128x64_1_0 : S64x128.Transposes [1, 0] S128x64
  transposes_S256x64_S64x256_1_0 : S256x64.Transposes [1, 0] S64x256
  inb_S4096x65_S4096x65_0_0 : ∀ a, (![0, 0] : Fin 2 → Nat) a + S4096x65.size a ≤ S4096x65.size a
  h_S4096x65 : 0 < S4096x65.numel
  slices_S4096x65_o0_64_S4096x1 : S4096x65.Slices ![0, 64] S4096x1
  iota_S1x16_d1_w32 : S1x16.Iotas .tc 32 [1]
  broadcasts_S4096x1_S4096x16 : S4096x1.Broadcasts S4096x16
  broadcasts_S1x16_S4096x16 : S1x16.Broadcasts S4096x16
  natLt_1_32 : 1 < 32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  reduces_S4096x16_S4096 : S4096x16.Reduces [1] S4096
  shapeCasts_S4096_S4096x1 : S4096.ShapeCasts S4096x1
  inb_S65x128_S65x128_0_0 : ∀ a, (![0, 0] : Fin 2 → Nat) a + S65x128.size a ≤ S65x128.size a
  h_S65x128 : 0 < S65x128.numel
  shapeCasts_S65x128_S65x128 : S65x128.ShapeCasts S65x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  iota_S1x256_d1_w32 : S1x256.Iotas .tc 32 [1]
  broadcasts_S4096x1_S4096x256 : S4096x1.Broadcasts S4096x256
  reduces_S4096x256_S4096 : S4096x256.Reduces [1] S4096
  inb_S4096x256_S4096x256_0_0 : ∀ a, (![0, 0] : Fin 2 → Nat) a + S4096x256.size a ≤ S4096x256.size a
  h_S4096x256 : 0 < S4096x256.numel
  bcast_S_S262144x256 : S_.BroadcastsInDim S262144x256 (![] : Fin 0 → Fin S262144x256.rank)
  dot_S4096x65_S65x128_S4096x128_1_0_0_1_n_n_wf : DotDims.WF S4096x65 S65x128 S4096x128 [1] [0] [0] [1] [] []
  dot_S4096x128_S128x64_S4096x64_1_0_0_1_n_n_wf : DotDims.WF S4096x128 S128x64 S4096x64 [1] [0] [0] [1] [] []
  dot_S4096x64_S64x256_S4096x256_1_0_0_1_n_n_wf : DotDims.WF S4096x64 S64x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x65.size a ≤ S262144x65.size a
  hwx0_0 : ∀ i : grid0.Coords, EltTy.bits .f32 = 32 ∨ (Rect.block (s := S262144x65) S4096x65.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S65x128.size a ≤ S65x128.size a
  hwx0_2 : ∀ i : grid0.Coords, EltTy.bits .bf16 = 32 ∨ (Rect.block (s := S65x128) S65x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .bf16 = 32 ∨ (Rect.block (s := S128x64) S128x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x256.size a
  hwx0_6 : ∀ i : grid0.Coords, EltTy.bits .bf16 = 32 ∨ (Rect.block (s := S64x256) S64x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x256.size a ≤ S262144x256.size a
  hwx0_8 : ∀ i : grid0.Coords, EltTy.bits .f32 = 32 ∨ (Rect.block (s := S262144x256) S4096x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x256.size a ≤ S262144x256.size a
  hwx0_9 : ∀ i : grid0.Coords, EltTy.bits .i32 = 32 ∨ (Rect.block (s := S262144x256) S4096x256.size (cc0_transform_9 i) (hinb0_9 i)).WholeWords (EltTy.packing .i32)

variable [Facts₀]

def dot_S4096x65_S65x128_S4096x128_1_0_0_1_n_n : DotDims S4096x65 S65x128 S4096x128 where
  lhsContracting := [1]
  rhsContracting := [0]
  lhsNonContracting := [0]
  rhsNonContracting := [1]
  lhsBatch := []
  rhsBatch := []
  wf := dot_S4096x65_S65x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf

abbrev win0_0 : Pipeline.Window sig grid0 :=
  Pipeline.Window.ofSpec (Memref.whole main_arg0) S4096x65.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S65x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S64x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11_0) S4096x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_1) S4096x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x65 : Shape := ⟨2, ![262144, 65]⟩
abbrev S16 : Shape := ⟨1, ![16]⟩
abbrev S128x65 : Shape := ⟨2, ![128, 65]⟩
abbrev S128 : Shape := ⟨1, ![128]⟩
abbrev S64x128 : Shape := ⟨2, ![64, 128]⟩
abbrev S64 : Shape := ⟨1, ![64]⟩
abbrev S256x64 : Shape := ⟨2, ![256, 64]⟩
abbrev S256 : Shape := ⟨1, ![256]⟩
abbrev S262144x1 : Shape := ⟨2, ![262144, 1]⟩
abbrev S262144 : Shape := ⟨1, ![262144]⟩
abbrev S65x128 : Shape := ⟨2, ![65, 128]⟩
abbrev S262144x128 : Shape := ⟨2, ![262144, 128]⟩
abbrev S1x128 : Shape := ⟨2, ![1, 128]⟩
abbrev S_ : Shape := ⟨0, ![]⟩
abbrev S128x64 : Shape := ⟨2, ![128, 64]⟩
abbrev S262144x64 : Shape := ⟨2, ![262144, 64]⟩
abbrev S1x64 : Shape := ⟨2, ![1, 64]⟩
abbrev S64x256 : Shape := ⟨2, ![64, 256]⟩
abbrev S262144x256 : Shape := ⟨2, ![262144, 256]⟩
abbrev S1x256 : Shape := ⟨2, ![1, 256]⟩

abbrev nBuf : Space → Nat
  | .hbm => 64
  | .vmem => 0
  | .smem => 0
  | _ => 0

abbrev bufTy : (tb : Table) → Fin (tcTables nBuf tb) → BufTy
  | .hbm, ⟨0, _⟩ => ⟨S262144x65, .f32⟩
  | .hbm, ⟨1, _⟩ => ⟨S16, .i32⟩
  | .hbm, ⟨2, _⟩ => ⟨S128x65, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S256x64, .f32⟩
  | .hbm, ⟨7, _⟩ => ⟨S256, .f32⟩
  | .hbm, ⟨8, _⟩ => ⟨S262144x1, .f32⟩
  | .hbm, ⟨9, _⟩ => ⟨S262144, .f32⟩
  | .hbm, ⟨10, _⟩ => ⟨S262144, .i32⟩
  | .hbm, ⟨11, _⟩ => ⟨S65x128, .f32⟩
  | .hbm, ⟨12, _⟩ => ⟨S262144x128, .f32⟩
  | .hbm, ⟨13, _⟩ => ⟨S1x128, .f32⟩
  | .hbm, ⟨14, _⟩ => ⟨S262144x128, .f32⟩
  | .hbm, ⟨15, _⟩ => ⟨S262144x128, .f32⟩
  | .hbm, ⟨16, _⟩ => ⟨S_, .f32⟩
  | .hbm, ⟨17, _⟩ => ⟨S262144x128, .f32⟩
  | .hbm, ⟨18, _⟩ => ⟨S262144x128, .f32⟩
  | .hbm, ⟨19, _⟩ => ⟨S128x64, .f32⟩
  | .hbm, ⟨20, _⟩ => ⟨S262144x64, .f32⟩
  | .hbm, ⟨21, _⟩ => ⟨S1x64, .f32⟩
  | .hbm, ⟨22, _⟩ => ⟨S262144x64, .f32⟩
  | .hbm, ⟨23, _⟩ => ⟨S262144x64, .f32⟩
  | .hbm, ⟨24, _⟩ => ⟨S_, .f32⟩
  | .hbm, ⟨25, _⟩ => ⟨S262144x64, .f32⟩
  | .hbm, ⟨26, _⟩ => ⟨S262144x64, .f32⟩
  | .hbm, ⟨27, _⟩ => ⟨S64x256, .f32⟩
  | .hbm, ⟨28, _⟩ => ⟨S262144x256, .f32⟩
  | .hbm, ⟨29, _⟩ => ⟨S1x256, .f32⟩
  | .hbm, ⟨30, _⟩ => ⟨S262144x256, .f32⟩
  | .hbm, ⟨31, _⟩ => ⟨S262144x256, .f32⟩
  | .hbm, ⟨32, _⟩ => ⟨S_, .i32⟩
  | .hbm, ⟨33, _⟩ => ⟨S262144, .i32⟩
  | .hbm, ⟨34, _⟩ => ⟨S262144, .i1⟩
  | .hbm, ⟨35, _⟩ => ⟨S_, .i32⟩
  | .hbm, ⟨36, _⟩ => ⟨S262144, .i32⟩
  | .hbm, ⟨37, _⟩ => ⟨S262144, .i32⟩
  | .hbm, ⟨38, _⟩ => ⟨S262144, .i32⟩
  | .hbm, ⟨39, _⟩ => ⟨S262144x1, .i32⟩
  | .hbm, ⟨40, _⟩ => ⟨S262144, .i32⟩
  | .hbm, ⟨41, _⟩ => ⟨S256, .i32⟩
  | .hbm, ⟨42, _⟩ => ⟨S1x256, .i32⟩
  | .hbm, ⟨43, _⟩ => ⟨S262144x1, .i32⟩
  | .hbm, ⟨44, _⟩ => ⟨S262144x256, .i32⟩
  | .hbm, ⟨45, _⟩ => ⟨S262144x256, .i32⟩
  | .hbm, ⟨46, _⟩ => ⟨S262144x256, .i1⟩
  | .hbm, ⟨47, _⟩ => ⟨S_, .f32⟩
  | .hbm, ⟨48, _⟩ => ⟨S262144x256, .f32⟩
  | .hbm, ⟨49, _⟩ => ⟨S262144x256, .f32⟩
  | .hbm, ⟨50, _⟩ => ⟨S_, .f32⟩
  | .hbm, ⟨51, _⟩ => ⟨S262144, .f32⟩
  | .hbm, ⟨52, _⟩ => ⟨S_, .f32⟩
  | .hbm, ⟨53, _⟩ => ⟨S262144, .f32⟩
  | .hbm, ⟨54, _⟩ => ⟨S262144, .f32⟩
  | .hbm, ⟨55, _⟩ => ⟨S262144x1, .f32⟩
  | .hbm, ⟨56, _⟩ => ⟨S262144x256, .f32⟩
  | .hbm, ⟨57, _⟩ => ⟨S262144x256, .f32⟩
  | .hbm, ⟨58, _⟩ => ⟨S262144x256, .f32⟩
  | .hbm, ⟨59, _⟩ => ⟨S_, .f32⟩
  | .hbm, ⟨60, _⟩ => ⟨S262144, .f32⟩
  | .hbm, ⟨61, _⟩ => ⟨S262144x1, .f32⟩
  | .hbm, ⟨62, _⟩ => ⟨S262144x256, .f32⟩
  | .hbm, ⟨63, _⟩ => ⟨S262144x256, .f32⟩
  | _, _ => ⟨S262144x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call1_cst : Ref sig .tc := ⟨.hbm, 24, rfl⟩
abbrev main_call1_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst : Ref sig .tc := ⟨.hbm, 47, rfl⟩
abbrev main_call2_v0 : Ref sig .tc := ⟨.hbm, 48, rfl⟩
abbrev main_v33 : Ref sig .tc := ⟨.hbm, 49, rfl⟩
abbrev main_cst_1 : Ref sig .tc := ⟨.hbm, 50, rfl⟩
abbrev main_v34 : Ref sig .tc := ⟨.hbm, 51, rfl⟩
abbrev main_cst_2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]

class Facts₀ : Prop where
  slices_S262144x65_S262144x1_0_64 : S262144x65.Slices ![0, 64] S262144x1
  shapeCasts_S262144x1_S262144 : S262144x1.ShapeCasts S262144
  transposes_S128x65_S65x128_1_0 : S128x65.Transposes [1, 0] S65x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  transposes_S64x128_S128x64_1_0 : S64x128.Transposes [1, 0] S128x64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  transposes_S256x64_S64x256_1_0 : S256x64.Transposes [1, 0] S64x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  bcast_S_S262144x256 : S_.BroadcastsInDim S262144x256 (![] : Fin 0 → Fin S262144x256.rank)
  reducesTo_S262144x256_S262144_d1 : S262144x256.ReducesTo [1] S262144
  h_S_ : 0 < S_.numel
  dot_S262144x65_S65x128_S262144x128_1_0_0_1_n_n_wf : DotDims.WF S262144x65 S65x128 S262144x128 [1] [0] [0] [1] [] []
  dot_S262144x128_S128x64_S262144x64_1_0_0_1_n_n_wf : DotDims.WF S262144x128 S128x64 S262144x64 [1] [0] [0] [1] [] []
  dot_S262144x64_S64x256_S262144x256_1_0_0_1_n_n_wf : DotDims.WF S262144x64 S64x256 S262144x256 [1] [0] [0] [1] [] []
  gather_S16_S262144x1_S262144_n_0_n_n_0_1_1_wf : GatherDims.WF S16 S262144x1 S262144 [] [0] [] [0] [] 1 ![1]

variable [Facts₀]

def dot_S262144x65_S65x128_S262144x128_1_0_0_1_n_n : DotDims S262144x65 S65x128 S262144x128 where
  lhsContracting := [1]
  rhsContracting := [0]
  lhsNonContracting := [0]
  rhsNonContracting := [1]
  lhsBatch := []
  rhsBatch := []
  wf := dot_S262144x65_S65x128_S262144x128_1_0_0_1_n_n_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def dot_S262144x64_S64x256_S262144x256_1_0_0_1_n_n : DotDims S262144x64 S64x256 S262144x256 where
  lhsContracting := [1]
  rhsContracting := [0]
  lhsNonContracting := [0]
  rhsNonContracting := [1]
  lhsBatch := []
  rhsBatch := []
  wf := dot_S262144x64_S64x256_S262144x256_1_0_0_1_n_n_wf
def gather_S16_S262144x1_S262144_n_0_n_n_0_1_1 : GatherDims S16 S262144x1 S262144 where
  offsetDims := []
  collapsedSliceDims := [0]
  operandBatchingDims := []
  startIndicesBatchingDims := []
  startIndexMap := [0]
  indexVectorDim := 1
  sliceSizes := ![1]
  wf := gather_S16_S262144x1_S262144_n_0_n_n_0_1_1_wf

class Facts : Prop extends Facts₀ where

variable [Facts]
-- ==== Proof.Spec.lean ====
/-
  The mathematics both programs compute, one row of the batch at a time, on the extended reals.

  A row `xr` of 65 numbers goes through three affine layers (the first two followed by `max · 0`):
  `hid1 j = max (Σ k, xr k · w1 j k + c1 j) 0`, `hid2 j = max (Σ k, hid1 k · w2 j k + c2 j) 0`,
  `logit c = Σ k, hid2 k · w3 c k + c3 c` (256 logits). The row's last entry, truncated to an integer,
  selects a word `s` of a 16-entry table; column `c` is kept when `c < s` (signed), and the other
  columns are filled with the constant −10⁹. The result is the softmax of the filled row: with
  `M` the row's maximum, `e c = exp (filled c − M)` and `prob c = e c / Σ c', e c'`; the second result is the
  keep bit itself.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The word of `0.0`. -/
abbrev zeroW : EReal := Ideal.ofBits .f32 0x00000000#32
/-- The word of the fill value `-1e9`. -/
abbrev fillW : EReal := Ideal.ofBits .f32 0xCE6E6B28#32
/-- The word of `-∞`, from which both programs start the row maximum. -/
abbrev ninfW : EReal := Ideal.ofBits .f32 0xFF800000#32

/-- First hidden layer of a row: `max (xr · w1ᵀ + c1) 0`. -/
def hid1 (xr : Fin 65 → EReal) (w1 : Fin 128 → Fin 65 → EReal) (c1 : Fin 128 → EReal) (j : Fin 128) : EReal :=
  max ((∑ k : Fin 65, xr k * w1 j k) + c1 j) zeroW

/-- Second hidden layer: `max (h1 · w2ᵀ + c2) 0`. -/
def hid2 (h1 : Fin 128 → EReal) (w2 : Fin 64 → Fin 128 → EReal) (c2 : Fin 64 → EReal) (j : Fin 64) : EReal :=
  max ((∑ k : Fin 128, h1 k * w2 j k) + c2 j) zeroW

/-- The output layer: `h2 · w3ᵀ + c3`. -/
def logit (h2 : Fin 64 → EReal) (w3 : Fin 256 → Fin 64 → EReal) (c3 : Fin 256 → EReal) (c : Fin 256) : EReal :=
  (∑ k : Fin 64, h2 k * w3 c k) + c3 c

/-- The 256 logits of a row. -/
def logits (xr : Fin 65 → EReal) (w1 : Fin 128 → Fin 65 → EReal) (c1 : Fin 128 → EReal)
    (w2 : Fin 64 → Fin 128 → EReal) (c2 : Fin 64 → EReal) (w3 : Fin 256 → Fin 64 → EReal) (c3 : Fin 256 → EReal) :
    Fin 256 → EReal :=
  logit (hid2 (hid1 xr w1 c1) w2 c2) w3 c3

/-- The row's index word: its last entry truncated toward zero (and clamped to the 32-bit range). -/
def dimIdx (xr : Fin 65 → EReal) : BitVec 32 := Ideal.fptosi 32 (xr 64)

/-- Column `c` is kept when `c < s`, signed, for the row's table word `s`. -/
def maskBit (s : BitVec 32) (c : Fin 256) : BitVec 1 := IntOp.cmpi .slt (BitVec.ofNat 32 c.val) s

/-- The logits with the dropped columns filled. -/
def masked (lg : Fin 256 → EReal) (s : BitVec 32) (c : Fin 256) : EReal := Scalar.select (maskBit s c) (lg c) fillW

/-- The filled row's maximum (a fold from −∞). -/
def rowMax (lg : Fin 256 → EReal) (s : BitVec 32) : EReal :=
  (Finset.univ : Finset (Fin 256)).fold max ninfW (masked lg s)

/-- The shifted exponentials. -/
def ex (lg : Fin 256 → EReal) (s : BitVec 32) (c : Fin 256) : EReal := Ideal.exp (masked lg s c - rowMax lg s)

/-- The softmax of the filled row. -/
def prob (lg : Fin 256 → EReal) (s : BitVec 32) (c : Fin 256) : EReal :=
  Ideal.div (ex lg s c) (∑ c' : Fin 256, ex lg s c')

/-- How the reference reads an index word `d` into the 16-entry table: a negative word has 16 added once (a
    negative index counts from the end), and the result is clamped into `[0, 15]`. -/
def refIdx (d : BitVec 32) : Fin 16 :=
  ⟨min (Scalar.select (IntOp.cmpi .slt d 0#32) (IntOp.addi d 16#32) d).toInt.toNat 15, by omega⟩

/-- How the kernel reads it: the word clamped into `[0, 15]` (signed), -/
def kerWord (d : BitVec 32) : BitVec 32 := IntOp.minsi 15#32 (IntOp.maxsi 0#32 d)

/-- as a table position. -/
def kerIdx (d : BitVec 32) : Fin 16 := ⟨min (kerWord d).toNat 15, by omega⟩

end Cert.Spec

end
-- ==== Proof.KernelPayload.lean ====
/-
  The kernel body's two stored values at an element of the block: for the block's row `p` and column `q` they are the
  softmax of the filled logits of that row and its keep bit, for the table word at the kernel's reading of the row's
  index word. The table reaches the body as floats (`x1`); `htab` says which words they are.
-/
import proofs.«431117_j59459527246286_3_alg».proof.Proof.Gen.KernelIdeal.Skeleton
import proofs.«431117_j59459527246286_3_alg».proof.Proof.Spec
import Idealize.ShloMosaic.Lib.Pipeline.Value
import Idealize.ShloMosaic.Lib.ValueLayout

noncomputable section

open scoped BigOperators

namespace Cert.KernelPayload

open Cert.KernelIdeal Cert.KernelIdeal.Gen Idealize.ShloMosaic Idealize.ShloMosaic.ValueIdx

/-- Row `p` of the input block. -/
abbrev brow (x0 : Vec Ideal S4096x65 .f32) (p : Fin 4096) : Fin 65 → EReal := fun k => x0 (ix2 p k)

/-- The row's logits from the blocks the body loads (the weights arrive transposed: input unit first). -/
abbrev blkLogits (x0 : Vec Ideal S4096x65 .f32) (x2 : Vec Ideal S65x128 .bf16) (x3 : Vec Ideal S1x128 .f32)
    (x4 : Vec Ideal S128x64 .bf16) (x5 : Vec Ideal S1x64 .f32) (x6 : Vec Ideal S64x256 .bf16) (x7 : Vec Ideal S1x256 .f32)
    (p : Fin 4096) : Fin 256 → EReal :=
  Spec.logits (brow x0 p) (fun j k => x2 (ix2 k j)) (fun j => x3 (ix2 0 j)) (fun j k => x4 (ix2 k j)) (fun j => x5 (ix2 0 j))
    (fun c k => x6 (ix2 k c)) (fun c => x7 (ix2 0 c))

/-! ## Words: the clamp, and a signed comparison read through the reals -/

private theorem zero_toInt : (0#32 : BitVec 32).toInt = 0 := by decide
private theorem fifteen_toInt : (15#32 : BitVec 32).toInt = 15 := by decide

/-- The kernel's clamped index word is between `0` and `15` as a signed integer. -/
private theorem kerWord_bounds (d : BitVec 32) : 0 ≤ (Spec.kerWord d).toInt ∧ (Spec.kerWord d).toInt ≤ 15 := by
  unfold Spec.kerWord IntOp.minsi IntOp.maxsi
  rw [BitVec.slt_eq_decide, BitVec.slt_eq_decide]
  simp only [decide_eq_true_eq, zero_toInt, fifteen_toInt]
  by_cases h1 : d.toInt < 0
  · rw [if_pos h1, zero_toInt, if_neg (by omega), zero_toInt]; omega
  · rw [if_neg h1]
    by_cases h2 : 15 < d.toInt
    · rw [if_pos h2, fifteen_toInt]; omega
    · rw [if_neg h2]; omega

/-- So it is at most `15` as a natural number too. -/
private theorem kerWord_toNat_le (d : BitVec 32) : (Spec.kerWord d).toNat ≤ 15 := by
  have h := kerWord_bounds d
  have hlt := (Spec.kerWord d).isLt
  rw [BitVec.toInt_eq_toNat_cond] at h
  split at h <;> omega

/-- The clamped word equals the column number `k` exactly at the table position the kernel reads. -/
private theorem kerWord_eq_iff (d : BitVec 32) (k : Fin 16) :
    Spec.kerWord d = BitVec.ofNat 32 k.val ↔ k = Spec.kerIdx d := by
  have hle := kerWord_toNat_le d
  have hk := k.isLt
  constructor
  · intro h
    refine Fin.ext ?_
    show k.val = min (Spec.kerWord d).toNat 15
    rw [h, BitVec.toNat_ofNat]
    omega
  · intro h
    refine BitVec.eq_of_toNat_eq ?_
    have hv : k.val = min (Spec.kerWord d).toNat 15 := congrArg Fin.val h
    rw [BitVec.toNat_ofNat]
    omega

private theorem sitofp_bit_true : (FloatOps.sitofp (F := Ideal) .f32 ((BitVec.ofBool true).setWidth 32) : EReal) = 1 := by
  show (((((BitVec.ofBool true).setWidth 32 : BitVec 32)).toInt : ℝ) : EReal) = 1
  have h : ((BitVec.ofBool true).setWidth 32 : BitVec 32).toInt = 1 := by decide
  rw [h, Int.cast_one, EReal.coe_one]

private theorem sitofp_bit_false : (FloatOps.sitofp (F := Ideal) .f32 ((BitVec.ofBool false).setWidth 32) : EReal) = 0 := by
  show (((((BitVec.ofBool false).setWidth 32 : BitVec 32)).toInt : ℝ) : EReal) = 0
  have h : ((BitVec.ofBool false).setWidth 32 : BitVec 32).toInt = 0 := by decide
  rw [h, Int.cast_zero, EReal.coe_zero]

/-- The one-hot row: `1` at the table position the kernel reads and `0` elsewhere. -/
private theorem onehot (d : BitVec 32) (k : Fin 16) :
    (FloatOps.sitofp (F := Ideal) .f32 ((IntOp.cmpi .eq (Spec.kerWord d) (BitVec.ofNat 32 k.val)).setWidth 32) : EReal)
      = if k = Spec.kerIdx d then 1 else 0 := by
  unfold IntOp.cmpi
  by_cases h : k = Spec.kerIdx d
  · have e : (Spec.kerWord d == BitVec.ofNat 32 k.val) = true := beq_iff_eq.mpr ((kerWord_eq_iff d k).mpr h)
    rw [if_pos h]
    show (FloatOps.sitofp (F := Ideal) .f32 ((BitVec.ofBool (Spec.kerWord d == BitVec.ofNat 32 k.val)).setWidth 32) : EReal) = 1
    rw [e]; exact sitofp_bit_true
  · have e : (Spec.kerWord d == BitVec.ofNat 32 k.val) = false :=
      beq_eq_false_iff_ne.mpr fun hh => h ((kerWord_eq_iff d k).mp hh)
    rw [if_neg h]
    show (FloatOps.sitofp (F := Ideal) .f32 ((BitVec.ofBool (Spec.kerWord d == BitVec.ofNat 32 k.val)).setWidth 32) : EReal) = 0
    rw [e]; exact sitofp_bit_false

/-- A float comparison of two converted words is the signed comparison of the words. -/
private theorem cmp_olt_words (a b : BitVec 32) :
    Ideal.cmp .olt (((a.toInt : ℝ) : EReal)) (((b.toInt : ℝ) : EReal)) = IntOp.cmpi .slt a b := by
  unfold Ideal.cmp IntOp.cmpi
  show BitVec.ofBool (decide ((((a.toInt : ℝ) : EReal)) < (((b.toInt : ℝ) : EReal)))) = BitVec.ofBool (a.slt b)
  rw [BitVec.slt_eq_decide]
  exact congrArg BitVec.ofBool (decide_eq_decide.mpr (by rw [EReal.coe_lt_coe_iff, Int.cast_lt]))

/-! ## Two layout readings at coordinates -/

/-- A column broadcast along the lanes reads, at `(p, c)`, the column's entry at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Integer operations read at an index (definitional) -/

private theorem cmpi_apply {s : Shape} {w : Nat} (c : CmpIPredicate) (a b : IVec s w) (i : s.Idx) :
    cmpi c a b i = IntOp.cmpi c (a i) (b i) := rfl
private theorem minsi_apply {s : Shape} {w : Nat} (a b : IVec s w) (i : s.Idx) : minsi a b i = IntOp.minsi (a i) (b i) := rfl
private theorem maxsi_apply {s : Shape} {w : Nat} (a b : IVec s w) (i : s.Idx) : maxsi a b i = IntOp.maxsi (a i) (b i) := rfl
private theorem fptosi_apply {s : Shape} {φ : FTy} (w : Nat) (x : FVec Ideal s φ) (i : s.Idx) :
    fptosi w x i = Ideal.fptosi w (x i) := rfl
private theorem exp_apply {s : Shape} {φ : FTy} (x : FVec Ideal s φ) (i : s.Idx) : exp x i = Ideal.exp (x i) := rfl

/-! ## A lane reduction of a matrix read at a row -/

/-- A lane inserted into a row index gives the element's coordinates. -/
private theorem lift_row {a b : ℕ} (h : (⟨2, ![a, b]⟩ : Shape).Reduces [1] ⟨1, ![a]⟩) (p : Fin a) (k : Fin b) :
    h.lift (ix1 p) k = ix2 p k := by
  funext c; match c with | ⟨0, _⟩ => rfl | ⟨1, _⟩ => rfl

/-- The lane sum of a matrix at row `p` is the sum of the row. -/
private theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of a matrix at row `p` is the fold of `max` over the row from the accumulator's value. -/
private theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · (Finset.univ : Finset (Fin b)))
      (funext fun k => congrArg src (lift_row h p k)))

/-! ## The table float the body reads for a row -/

/-- The column the first part hands on holds, in row `p`, the table word (as a float) at the kernel's reading of the
    row's index word: the one-hot row times the table, summed over the sixteen lanes. -/
private theorem pay4_apply (x0 : Vec Ideal S4096x65 .f32) (x1 : Vec Ideal S1x16 .f32) (tab : Fin 16 → BitVec 32)
    (htab : ∀ k : Fin 16, x1 (ix2 0 k) = (((tab k).toInt : ℝ) : EReal)) (p : Fin 4096) :
    k0_pay4 (F := Ideal) x0 x1 (ix2 p 0) = (((tab (Spec.kerIdx (Spec.dimIdx (brow x0 p)))).toInt : ℝ) : EReal) := by
  unfold k0_pay4
  dsimp only
  rw [shapeCast_a_a1_apply]
  refine (rowSum_apply _ _ reduces_S4096x16_S4096 _ _ p).trans ?_
  refine (Finset.sum_congr rfl (g := fun k : Fin 16 =>
      (if k = Spec.kerIdx (Spec.dimIdx (brow x0 p)) then (1 : EReal) else 0) * x1 (ix2 0 k)) fun k _ => ?_).trans ?_
  · rw [mulf_apply]
    refine congrArg₂ (· * ·) ?_ ?_
    · rw [sitofp_apply, extui_apply, cmpi_apply, broadcastTo_a1_ab_apply, broadcastTo_1b_ab_apply, iota_single_apply,
        minsi_apply, maxsi_apply, broadcast_apply, broadcast_apply, fptosi_apply, slice2_axis1_apply 64 x0 _ p 0 64 rfl]
      exact onehot (Spec.dimIdx (brow x0 p)) k
    · rw [broadcastTo_1b_ab_apply, shapeCast_self]
  · rw [Finset.sum_eq_single (Spec.kerIdx (Spec.dimIdx (brow x0 p)))]
    · rw [if_pos rfl, one_mul, htab]
    · intro b _ hb; rw [if_neg hb, zero_mul]
    · intro h; exact absurd (Finset.mem_univ _) h

/-! ## The keep bit -/

/-- The keep bit the body computes at an element: the column number, as a float, against the row's entry of the column
    it is handed. -/
private theorem pay1_apply (v18 : FVec Ideal S4096x1 .f32) (p : Fin 4096) (q : Fin 256) :
    k0_pay1 (F := Ideal) v18 (ix2 p q)
      = Ideal.cmp .olt ((((BitVec.ofNat 32 q.val).toInt : ℝ)) : EReal) (v18 (ix2 p 0)) := by
  unfold k0_pay1
  dsimp only
  rw [cmpf_apply, broadcastTo_1b_ab_apply, broadcastTo_a1_ab_apply, sitofp_apply, iota_single_apply]
  rfl

/-- With the table float in the column, the keep bit is the signed comparison of the column number with the table word. -/
private theorem pay1_maskBit (x0 : Vec Ideal S4096x65 .f32) (x1 : Vec Ideal S1x16 .f32) (tab : Fin 16 → BitVec 32)
    (htab : ∀ k : Fin 16, x1 (ix2 0 k) = (((tab k).toInt : ℝ) : EReal)) (p : Fin 4096) (q : Fin 256) :
    k0_pay1 (F := Ideal) (k0_pay4 x0 x1) (ix2 p q) = Spec.maskBit (tab (Spec.kerIdx (Spec.dimIdx (brow x0 p)))) q := by
  rw [pay1_apply, pay4_apply x0 x1 tab htab p]
  exact cmp_olt_words _ _

/-- The keep mask the body stores (widened to 32 bits) at an element. -/
theorem pay_mask (x0 : Vec Ideal S4096x65 .f32) (x1 : Vec Ideal S1x16 .f32) (tab : Fin 16 → BitVec 32)
    (htab : ∀ k : Fin 16, x1 (ix2 0 k) = (((tab k).toInt : ℝ) : EReal)) (p : Fin 4096) (q : Fin 256) :
    k0_pay3 (F := Ideal) (k0_pay4 x0 x1) (ix2 p q)
      = (Spec.maskBit (tab (Spec.kerIdx (Spec.dimIdx (brow x0 p)))) q).setWidth 32 := by
  unfold k0_pay3
  rw [extui_apply, pay1_maskBit x0 x1 tab htab p q]

/-! ## A matrix product into the zero constant, read at an element -/

/-- For dimension numbers that contract the left operand's columns with the right operand's rows (no batch axis), the
    product into the zero accumulator is, at `(p, j)`, the sum over the contraction coordinate of the row's entries
    times the column's. -/
private theorem matmul_rows_apply {M K N : ℕ} {φ₁ φ₂ : FTy} (D : DotDims ⟨2, ![M, K]⟩ ⟨2, ![K, N]⟩ ⟨2, ![M, N]⟩)
    (hlB : D.lhsBatch = []) (hlN : D.lhsNonContracting = [0]) (hlC : D.lhsContracting = [1])
    (hrB : D.rhsBatch = []) (hrN : D.rhsNonContracting = [1]) (hrC : D.rhsContracting = [0])
    (hr : D.contr.rank = 1) (hs : D.contr.size ⟨0, by omega⟩ = K)
    (lhs : FVec Ideal ⟨2, ![M, K]⟩ φ₁) (rhs : FVec Ideal ⟨2, ![K, N]⟩ φ₂) (p : Fin M) (j : Fin N) :
    FloatOps.matmul D none lhs rhs (constant ⟨2, ![M, N]⟩ .f32 0x00000000#32) (ix2 p j)
      = ∑ k : Fin K, lhs (ix2 p k) * rhs (ix2 k j) := by
  have key : ∀ (i : (⟨2, ![M, N]⟩ : Shape).Idx) (a b : Nat) (ha : a < 2) (hb : b < 2), a = b → (i ⟨a, ha⟩).val = (i ⟨b, hb⟩).val :=
    fun i a b ha hb h => by subst h; rfl
  have hl0 : ∀ i q, (D.lhsIdx i q 0).val = (i 0).val := fun i q => by
    unfold DotDims.lhsIdx
    rw [dif_neg (by rw [hlB]; exact List.not_mem_nil), dif_pos (by rw [hlN]; exact List.mem_singleton.mpr rfl)]
    simp only [Fin.val_cast]
    exact key i _ _ _ _ (by simp [hlB, hlN])
  have hr1 : ∀ i q, (D.rhsIdx i q 1).val = (i 1).val := fun i q => by
    unfold DotDims.rhsIdx
    rw [dif_neg (by rw [hrB]; exact List.not_mem_nil), dif_pos (by rw [hrN]; exact List.mem_singleton.mpr rfl)]
    simp only [Fin.val_cast]
    exact key i _ _ _ _ (by simp [hlB, hlN, hrN])
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (D.lhsIdx_val_of_single hlC _ _).trans hk)
  have er : D.rhsIdx (ix2 p j) ((contrEquiv1 D K hr hs).symm k) = ix2 k j := funext fun a => Fin.ext (by
    match a with
    | ⟨0, _⟩ => exact (D.rhsIdx_val_of_single hrC _ _).trans hk
    | ⟨1, _⟩ => exact hr1 _ _)
  rw [el, er]

private theorem dot1_apply (lhs : FVec Ideal S4096x65 .bf16) (rhs : FVec Ideal S65x128 .bf16) (p : Fin 4096) (j : Fin 128) :
    matmul dot_S4096x65_S65x128_S4096x128_1_0_0_1_n_n none lhs rhs (constant S4096x128 .f32 0x00000000#32) (ix2 p j)
      = ∑ k : Fin 65, lhs (ix2 p k) * rhs (ix2 k j) :=
  matmul_rows_apply dot_S4096x65_S65x128_S4096x128_1_0_0_1_n_n rfl rfl rfl rfl rfl rfl rfl rfl lhs rhs p j

private theorem dot2_apply (lhs : FVec Ideal S4096x128 .bf16) (rhs : FVec Ideal S128x64 .bf16) (p : Fin 4096) (j : Fin 64) :
    matmul dot_S4096x128_S128x64_S4096x64_1_0_0_1_n_n none lhs rhs (constant S4096x64 .f32 0x00000000#32) (ix2 p j)
      = ∑ k : Fin 128, lhs (ix2 p k) * rhs (ix2 k j) :=
  matmul_rows_apply dot_S4096x128_S128x64_S4096x64_1_0_0_1_n_n rfl rfl rfl rfl rfl rfl rfl rfl lhs rhs p j

private theorem dot3_apply (lhs : FVec Ideal S4096x64 .bf16) (rhs : FVec Ideal S64x256 .bf16) (p : Fin 4096) (j : Fin 256) :
    matmul dot_S4096x64_S64x256_S4096x256_1_0_0_1_n_n none lhs rhs (constant S4096x256 .f32 0x00000000#32) (ix2 p j)
      = ∑ k : Fin 64, lhs (ix2 p k) * rhs (ix2 k j) :=
  matmul_rows_apply dot_S4096x64_S64x256_S4096x256_1_0_0_1_n_n rfl rfl rfl rfl rfl rfl rfl rfl lhs rhs p j

/-- The block the first part hands on holds, in row `p`, the second hidden layer of the row. -/
private theorem pay5_apply (x0 : Vec Ideal S4096x65 .f32) (x2 : Vec Ideal S65x128 .bf16) (x3 : Vec Ideal S1x128 .f32)
    (x4 : Vec Ideal S128x64 .bf16) (x5 : Vec Ideal S1x64 .f32) (p : Fin 4096) (j : Fin 64) :
    k0_pay5 (F := Ideal) x0 x2 x3 x4 x5 (ix2 p j)
      = Spec.hid2 (Spec.hid1 (brow x0 p) (fun j k => x2 (ix2 k j)) (fun j => x3 (ix2 0 j))) (fun j k => x4 (ix2 k j))
          (fun j => x5 (ix2 0 j)) j := by
  unfold k0_pay5
  simp only [shapeCast_self]
  rw [truncf_apply, maximumf_apply, addf_apply, broadcast_apply, broadcastTo_1b_ab_apply, dot2_apply]
  refine congrArg₂ max (congrArg (· + x5 (ix2 0 j)) (Finset.sum_congr rfl fun k _ => congrArg (· * x4 (ix2 k j)) ?_)) rfl
  rw [truncf_apply, maximumf_apply, addf_apply, broadcast_apply, broadcastTo_1b_ab_apply, dot1_apply]
  rfl

/-! ## The probabilities -/

/-- The softmax the body stores, for ANY column `v18` and hidden block `v39` it is handed: if at row `p` the keep bits are
    those of a word `s` and the output layer's sums are `lg`, the stored value at `(p, q)` is the softmax of the filled row. -/
private theorem pay2_apply (v18 : FVec Ideal S4096x1 .f32) (v39 : FVec Ideal S4096x64 .bf16) (x6 : Vec Ideal S64x256 .bf16)
    (x7 : Vec Ideal S1x256 .f32) (s : BitVec 32) (lg : Fin 256 → EReal) (p : Fin 4096)
    (hmask : ∀ c : Fin 256, k0_pay1 (F := Ideal) v18 (ix2 p c) = Spec.maskBit s c)
    (hlg : ∀ c : Fin 256, (∑ k : Fin 64, v39 (ix2 p k) * x6 (ix2 k c)) + x7 (ix2 0 c) = lg c) (q : Fin 256) :
    k0_pay2 (F := Ideal) v18 v39 x6 x7 (ix2 p q) = Spec.prob lg s q := by
  unfold k0_pay2
  simp only [shapeCast_self]
  -- the filled logits block
  generalize hF : select (k0_pay1 (F := Ideal) v18) _ _ = Fv
  have hFv : ∀ c : Fin 256, Fv (ix2 p c) = Spec.masked lg s c := fun c => by
    rw [← hF, select_apply, addf_apply, dot3_apply, broadcastTo_1b_ab_apply, broadcast_apply, hmask, hlg]
    rfl
  clear hF
  -- the row maximum, broadcast back over the lanes
  have hM : ∀ c : Fin 256,
      (broadcastTo S4096x256 (shapeCast S4096x1 (multiReduction .maximumf [1] S4096 Fv 0xFF800000#32 reduces_S4096x256_S4096
        (.inl rfl) rfl) shapeCasts_S4096_S4096x1) broadcasts_S4096x1_S4096x256) (ix2 p c) = Spec.rowMax lg s := fun c => by
    rw [broadcastTo_a1_ab_apply, shapeCast_a_a1_apply]
    refine (rowMax_apply _ _ reduces_S4096x256_S4096 _ _ p).trans ?_
    unfold Spec.rowMax
    exact congrArg (Finset.fold max Spec.ninfW · (Finset.univ : Finset (Fin 256))) (funext fun k => hFv k)
  rw [divf_apply, broadcastTo_a1_ab_apply, shapeCast_a_a1_apply]
  refine (congrArg (Ideal.div _) (rowSum_apply _ _ reduces_S4096x256_S4096 _ _ p)).trans ?_
  simp only [exp_apply, subf_apply, hM, hFv]
  rfl

/-- The probabilities the body stores at an element. -/
theorem pay_probs (x0 : Vec Ideal S4096x65 .f32) (x1 : Vec Ideal S1x16 .f32) (x2 : Vec Ideal S65x128 .bf16) (x3 : Vec Ideal S1x128 .f32)
    (x4 : Vec Ideal S128x64 .bf16) (x5 : Vec Ideal S1x64 .f32) (x6 : Vec Ideal S64x256 .bf16) (x7 : Vec Ideal S1x256 .f32)
    (tab : Fin 16 → BitVec 32) (htab : ∀ k : Fin 16, x1 (ix2 0 k) = (((tab k).toInt : ℝ) : EReal)) (p : Fin 4096) (q : Fin 256) :
    k0_pay2 (F := Ideal) (k0_pay4 x0 x1) (k0_pay5 x0 x2 x3 x4 x5) x6 x7 (ix2 p q)
      = Spec.prob (blkLogits x0 x2 x3 x4 x5 x6 x7 p) (tab (Spec.kerIdx (Spec.dimIdx (brow x0 p)))) q := by
  refine pay2_apply _ _ x6 x7 _ _ p (fun c => pay1_maskBit x0 x1 tab htab p c) (fun c => ?_) q
  simp only [pay5_apply]
  rfl

end Cert.KernelPayload

end
-- ==== Proof.KernelValue.lean ====
/-
  The kernel's run read as values: what its two result arrays hold when it ends, as functions of the argument arrays.
-/
import proofs.«431117_j59459527246286_3_alg».proof.Proof.Gen.KernelIdeal.Frame
import proofs.«431117_j59459527246286_3_alg».proof.Proof.KernelPayload
import proofs.«431117_j59459527246286_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The argument arrays, by name -/

abbrev aX (c : Dev nD) : FVec Ideal S262144x65 .f32 := m ((c : Thread nD τ).loc main_arg0)
abbrev aT (c : Dev nD) : IVec S16 32 := m ((c : Thread nD τ).loc main_arg1)
abbrev aW1 (c : Dev nD) : FVec Ideal S128x65 .f32 := m ((c : Thread nD τ).loc main_arg2)
abbrev aB1 (c : Dev nD) : FVec Ideal S128 .f32 := m ((c : Thread nD τ).loc main_arg3)
abbrev aW2 (c : Dev nD) : FVec Ideal S64x128 .f32 := m ((c : Thread nD τ).loc main_arg4)
abbrev aB2 (c : Dev nD) : FVec Ideal S64 .f32 := m ((c : Thread nD τ).loc main_arg5)
abbrev aW3 (c : Dev nD) : FVec Ideal S256x64 .f32 := m ((c : Thread nD τ).loc main_arg6)
abbrev aB3 (c : Dev nD) : FVec Ideal S256 .f32 := m ((c : Thread nD τ).loc main_arg7)

/-! ## What the host lines before the call leave in the arrays the call stages -/

/-- The table as floats, one row. -/
theorem V_v4 (c : Dev nD) : (V m c main_v4 : S1x16.Idx → EReal)
    = shapeCast S1x16 (sitofp (F := Ideal) .f32 (aT m c)) shapeCasts_S16_S1x16 := by
  show StableHlo.after hostOps0 (fun b => m (c, b)) (Proc.devRef .tc main_v4) = _
  after_results
  rfl

/-- Entry `k` of that row is table word `k` read as a signed integer. -/
theorem V_v4_apply (c : Dev nD) (k : Fin 16) :
    (V m c main_v4 : S1x16.Idx → EReal) (ix2 0 k) = (((aT m c (ix1 k)).toInt : ℝ) : EReal) := by
  refine (congrFun (V_v4 m c) (ix2 0 k)).trans ?_
  refine (shapeCast_apply _ shapeCasts_S16_S1x16 (ix2 0 k) (ix1 k) ?_).trans ?_
  · rewrite [Shape.rowMajor_val_one, Shape.rowMajor_val_two]; show k.val = 0 * 16 + k.val; omega
  · rfl

/-- The first layer's weights, transposed (the change of float format is the identity). -/
theorem V_v6 (c : Dev nD) : (V m c main_v6 : S65x128.Idx → EReal)
    = transpose S65x128 [1, 0] (truncf (F := Ideal) .bf16 (aW1 m c) bitsLt_bf16_f32) transposes_S128x65_S65x128_1_0 := by
  show StableHlo.after hostOps0 (fun b => m (c, b)) (Proc.devRef .tc main_v6) = _
  after_results

theorem V_v6_apply (c : Dev nD) (k : Fin 65) (j : Fin 128) :
    (V m c main_v6 : S65x128.Idx → EReal) (ix2 k j) = aW1 m c (ix2 j k) := by
  refine (congrFun (V_v6 m c) (ix2 k j)).trans ?_
  exact transpose_apply [1, 0] _ transposes_S128x65_S65x128_1_0 (ix2 k j) (ix2 j k) (fun b => match b with
    | ⟨0, _⟩ => rfl
    | ⟨1, _⟩ => rfl)

/-- The second layer's weights, transposed. -/
theorem V_v8 (c : Dev nD) : (V m c main_v8 : S128x64.Idx → EReal)
    = transpose S128x64 [1, 0] (truncf (F := Ideal) .bf16 (aW2 m c) bitsLt_bf16_f32) transposes_S64x128_S128x64_1_0 := by
  show StableHlo.after hostOps0 (fun b => m (c, b)) (Proc.devRef .tc main_v8) = _
  after_results

theorem V_v8_apply (c : Dev nD) (k : Fin 128) (j : Fin 64) :
    (V m c main_v8 : S128x64.Idx → EReal) (ix2 k j) = aW2 m c (ix2 j k) := by
  refine (congrFun (V_v8 m c) (ix2 k j)).trans ?_
  exact transpose_apply [1, 0] _ transposes_S64x128_S128x64_1_0 (ix2 k j) (ix2 j k) (fun b => match b with
    | ⟨0, _⟩ => rfl
    | ⟨1, _⟩ => rfl)

/-- The output layer's weights, transposed. -/
theorem V_v10 (c : Dev nD) : (V m c main_v10 : S64x256.Idx → EReal)
    = transpose S64x256 [1, 0] (truncf (F := Ideal) .bf16 (aW3 m c) bitsLt_bf16_f32) transposes_S256x64_S64x256_1_0 := by
  show StableHlo.after hostOps0 (fun b => m (c, b)) (Proc.devRef .tc main_v10) = _
  after_results

theorem V_v10_apply (c : Dev nD) (k : Fin 64) (j : Fin 256) :
    (V m c main_v10 : S64x256.Idx → EReal) (ix2 k j) = aW3 m c (ix2 j k) := by
  refine (congrFun (V_v10 m c) (ix2 k j)).trans ?_
  exact transpose_apply [1, 0] _ transposes_S256x64_S64x256_1_0 (ix2 k j) (ix2 j k) (fun b => match b with
    | ⟨0, _⟩ => rfl
    | ⟨1, _⟩ => rfl)

/-- The three bias vectors as one-row matrices. -/
theorem V_v0 (c : Dev nD) : (V m c main_v0 : S1x128.Idx → EReal) = shapeCast S1x128 (aB1 m c) shapeCasts_S128_S1x128 := by
  show StableHlo.after hostOps0 (fun b => m (c, b)) (Proc.devRef .tc main_v0) = _
  after_results
  rfl

theorem V_v0_apply (c : Dev nD) (j : Fin 128) : (V m c main_v0 : S1x128.Idx → EReal) (ix2 0 j) = aB1 m c (ix1 j) := by
  refine (congrFun (V_v0 m c) (ix2 0 j)).trans ?_
  refine shapeCast_apply _ shapeCasts_S128_S1x128 (ix2 0 j) (ix1 j) ?_
  rewrite [Shape.rowMajor_val_one, Shape.rowMajor_val_two]; show j.val = 0 * 128 + j.val; omega

theorem V_v1 (c : Dev nD) : (V m c main_v1 : S1x64.Idx → EReal) = shapeCast S1x64 (aB2 m c) shapeCasts_S64_S1x64 := by
  show StableHlo.after hostOps0 (fun b => m (c, b)) (Proc.devRef .tc main_v1) = _
  after_results
  rfl

theorem V_v1_apply (c : Dev nD) (j : Fin 64) : (V m c main_v1 : S1x64.Idx → EReal) (ix2 0 j) = aB2 m c (ix1 j) := by
  refine (congrFun (V_v1 m c) (ix2 0 j)).trans ?_
  refine shapeCast_apply _ shapeCasts_S64_S1x64 (ix2 0 j) (ix1 j) ?_
  rewrite [Shape.rowMajor_val_one, Shape.rowMajor_val_two]; show j.val = 0 * 64 + j.val; omega

theorem V_v2 (c : Dev nD) : (V m c main_v2 : S1x256.Idx → EReal) = shapeCast S1x256 (aB3 m c) shapeCasts_S256_S1x256 := by
  show StableHlo.after hostOps0 (fun b => m (c, b)) (Proc.devRef .tc main_v2) = _
  after_results
  rfl

theorem V_v2_apply (c : Dev nD) (j : Fin 256) : (V m c main_v2 : S1x256.Idx → EReal) (ix2 0 j) = aB3 m c (ix1 j) := by
  refine (congrFun (V_v2 m c) (ix2 0 j)).trans ?_
  refine shapeCast_apply _ shapeCasts_S256_S1x256 (ix2 0 j) (ix1 j) ?_
  rewrite [Shape.rowMajor_val_one, Shape.rowMajor_val_two]; show j.val = 0 * 256 + j.val; omega

/-! ## The blocks the body loads at a grid point -/

theorem hz : (![0, 0] : Fin 2 → Nat) = fun _ => 0 := funext fun a => by fin_cases a <;> rfl

/-- The printed index maps, decided over the 64 grid points: the input rows move with the two outputs' rows, every other
    window stays on its one block, and the outputs' row-block index stays below 64. -/
theorem idx_facts : ∀ t : Fin cfg0.N,
    win0_0.index t (0 : Fin 2) = win0_8.index t (0 : Fin 2) ∧ win0_0.index t (1 : Fin 2) = 0
    ∧ win0_9.index t (0 : Fin 2) = win0_8.index t (0 : Fin 2) ∧ win0_9.index t (1 : Fin 2) = 0
    ∧ win0_8.index t (1 : Fin 2) = 0 ∧ win0_8.index t (0 : Fin 2) ≤ 63
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Every row-block of the outputs is some point's. -/
theorem idx_onto : ∀ q0 : Fin 64, ∃ t : Fin cfg0.N, win0_8.index t = ![q0.val, 0] ∧ win0_9.index t = ![q0.val, 0] :=
  (by decide +kernel : ∀ q0 : Fin 64, ∃ t : Fin grid0.N, win0_8.index t = ![q0.val, 0] ∧ win0_9.index t = ![q0.val, 0])

abbrev b0 (c : Dev nD) (t : Fin cfg0.N) : Vec Ideal S4096x65 .f32 := iblk m c 0 t
abbrev b1 (c : Dev nD) (t : Fin cfg0.N) : Vec Ideal S1x16 .f32 := iblk m c 1 t
abbrev b2 (c : Dev nD) (t : Fin cfg0.N) : Vec Ideal S65x128 .bf16 := iblk m c 2 t
abbrev b3 (c : Dev nD) (t : Fin cfg0.N) : Vec Ideal S1x128 .f32 := iblk m c 3 t
abbrev b4 (c : Dev nD) (t : Fin cfg0.N) : Vec Ideal S128x64 .bf16 := iblk m c 4 t
abbrev b5 (c : Dev nD) (t : Fin cfg0.N) : Vec Ideal S1x64 .f32 := iblk m c 5 t
abbrev b6 (c : Dev nD) (t : Fin cfg0.N) : Vec Ideal S64x256 .bf16 := iblk m c 6 t
abbrev b7 (c : Dev nD) (t : Fin cfg0.N) : Vec Ideal S1x256 .f32 := iblk m c 7 t

/-- Row `p` of the input block at point `t` is the input's row under the output block's row `p`. -/
theorem b0_apply (c : Dev nD) (t : Fin cfg0.N) (p : Fin 4096) (q : Fin 256) (k : Fin 65) :
    b0 m c t (ix2 p k) = aX m c (ix2 ((((cfg0.win 8).blk t).view.emb (ix2 p q)) 0) k) := by
  obtain ⟨e0, e1, -⟩ := idx_facts t
  show V m c main_arg0 (((cfg0.win 0).blk t).view.emb (ix2 p k)) = _
  rw [V_main_arg0]
  refine congrArg (aX m c) ?_
  funext a; apply Fin.ext
  match a with
  | ⟨0, _⟩ => show win0_0.index t (0 : Fin 2) * 4096 + 1 * p.val = win0_8.index t (0 : Fin 2) * 4096 + 1 * p.val; omega
  | ⟨1, _⟩ => show win0_0.index t (1 : Fin 2) * 65 + 1 * k.val = k.val; omega

/-- The one block of the table is the table. -/
theorem b1_eq (c : Dev nD) (t : Fin cfg0.N) : b1 m c t = (V m c main_v4 : S1x16.Idx → EReal) := by
  obtain ⟨-, -, -, -, -, -, e0, e1, -⟩ := idx_facts t
  funext y
  show V m c main_v4 (((cfg0.win 1).blk t).view.emb y) = V m c main_v4 y
  refine congrArg (V m c main_v4) ?_
  funext a; apply Fin.ext
  match a with
  | ⟨0, _⟩ => show win0_1.index t (0 : Fin 2) * 1 + 1 * (y 0).val = (y 0).val; omega
  | ⟨1, _⟩ => show win0_1.index t (1 : Fin 2) * 16 + 1 * (y 1).val = (y 1).val; omega

theorem b2_eq (c : Dev nD) (t : Fin cfg0.N) : b2 m c t = (V m c main_v6 : S65x128.Idx → EReal) := by
  obtain ⟨-, -, -, -, -, -, -, -, e0, e1, -⟩ := idx_facts t
  funext y
  show V m c main_v6 (((cfg0.win 2).blk t).view.emb y) = V m c main_v6 y
  refine congrArg (V m c main_v6) ?_
  funext a; apply Fin.ext
  match a with
  | ⟨0, _⟩ => show win0_2.index t (0 : Fin 2) * 65 + 1 * (y 0).val = (y 0).val; omega
  | ⟨1, _⟩ => show win0_2.index t (1 : Fin 2) * 128 + 1 * (y 1).val = (y 1).val; omega

theorem b3_eq (c : Dev nD) (t : Fin cfg0.N) : b3 m c t = (V m c main_v0 : S1x128.Idx → EReal) := by
  obtain ⟨-, -, -, -, -, -, -, -, -, -, e0, e1, -⟩ := idx_facts t
  funext y
  show V m c main_v0 (((cfg0.win 3).blk t).view.emb y) = V m c main_v0 y
  refine congrArg (V m c main_v0) ?_
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem b4_eq (c : Dev nD) (t : Fin cfg0.N) : b4 m c t = (V m c main_v8 : S128x64.Idx → EReal) := by
  obtain ⟨-, -, -, -, -, -, -, -, -, -, -, -, e0, e1, -⟩ := idx_facts t
  funext y
  show V m c main_v8 (((cfg0.win 4).blk t).view.emb y) = V m c main_v8 y
  refine congrArg (V m c main_v8) ?_
  funext a; apply Fin.ext
  match a with
  | ⟨0, _⟩ => show win0_4.index t (0 : Fin 2) * 128 + 1 * (y 0).val = (y 0).val; omega
  | ⟨1, _⟩ => show win0_4.index t (1 : Fin 2) * 64 + 1 * (y 1).val = (y 1).val; omega

theorem b5_eq (c : Dev nD) (t : Fin cfg0.N) : b5 m c t = (V m c main_v1 : S1x64.Idx → EReal) := by
  obtain ⟨-, -, -, -, -, -, -, -, -, -, -, -, -, -, e0, e1, -⟩ := idx_facts t
  funext y
  show V m c main_v1 (((cfg0.win 5).blk t).view.emb y) = V m c main_v1 y
  refine congrArg (V m c main_v1) ?_
  funext a; apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

theorem b6_eq (c : Dev nD) (t : Fin cfg0.N) : b6 m c t = (V m c main_v10 : S64x256.Idx → EReal) := by
  obtain ⟨-, -, -, -, -, -, -, -, -, -, -, -, -, -, -, -, e0, e1, -⟩ := idx_facts t
  funext y
  show V m c main_v10 (((cfg0.win 6).blk t).view.emb y) = V m c main_v10 y
  refine congrArg (V m c main_v10) ?_
  funext a; apply Fin.ext
  match a with
  | ⟨0, _⟩ => show win0_6.index t (0 : Fin 2) * 64 + 1 * (y 0).val = (y 0).val; omega
  | ⟨1, _⟩ => show win0_6.index t (1 : Fin 2) * 256 + 1 * (y 1).val = (y 1).val; omega

theorem b7_eq (c : Dev nD) (t : Fin cfg0.N) : b7 m c t = (V m c main_v2 : S1x256.Idx → EReal) := by
  obtain ⟨-, -, -, -, -, -, -, -, -, -, -, -, -, -, -, -, -, -, e0, e1⟩ := idx_facts t
  funext y
  show V m c main_v2 (((cfg0.win 7).blk t).view.emb y) = V m c main_v2 y
  refine congrArg (V m c main_v2) ?_
  funext a; apply Fin.ext
  match a with
  | ⟨0, _⟩ => show win0_7.index t (0 : Fin 2) * 1 + 1 * (y 0).val = (y 0).val; omega
  | ⟨1, _⟩ => show win0_7.index t (1 : Fin 2) * 256 + 1 * (y 1).val = (y 1).val; omega

/-! ## The two results as functions of the argument arrays -/

/-- Row `r` of the input. -/
abbrev xrow (x0 : FVec Ideal S262144x65 .f32) (r : Fin 262144) : Fin 65 → EReal := fun k => x0 (ix2 r k)

/-- The table word the kernel reads for row `r`. -/
abbrev kerScale (x0 : FVec Ideal S262144x65 .f32) (x1 : IVec S16 32) (r : Fin 262144) : BitVec 32 :=
  x1 (ix1 (Spec.kerIdx (Spec.dimIdx (xrow x0 r))))

/-- Row `r`'s logits. -/
abbrev rowLogits (x0 : FVec Ideal S262144x65 .f32) (x2 : FVec Ideal S128x65 .f32) (x3 : FVec Ideal S128 .f32)
    (x4 : FVec Ideal S64x128 .f32) (x5 : FVec Ideal S64 .f32) (x6 : FVec Ideal S256x64 .f32) (x7 : FVec Ideal S256 .f32)
    (r : Fin 262144) : Fin 256 → EReal :=
  Spec.logits (xrow x0 r) (fun j k => x2 (ix2 j k)) (fun j => x3 (ix1 j)) (fun j k => x4 (ix2 j k)) (fun j => x5 (ix1 j))
    (fun cc k => x6 (ix2 cc k)) (fun cc => x7 (ix1 cc))

/-- The first result: each row's softmax of its filled logits. -/
def probsOf (x0 : FVec Ideal S262144x65 .f32) (x1 : IVec S16 32) (x2 : FVec Ideal S128x65 .f32) (x3 : FVec Ideal S128 .f32)
    (x4 : FVec Ideal S64x128 .f32) (x5 : FVec Ideal S64 .f32) (x6 : FVec Ideal S256x64 .f32) (x7 : FVec Ideal S256 .f32) :
    S262144x256.Idx → EReal :=
  fun i => Spec.prob (rowLogits x0 x2 x3 x4 x5 x6 x7 (i 0)) (kerScale x0 x1 (i 0)) (i 1)

/-- The second result: each row's keep bits, -/
def maskOf (x0 : FVec Ideal S262144x65 .f32) (x1 : IVec S16 32) : S262144x256.Idx → BitVec 1 :=
  fun i => Spec.maskBit (kerScale x0 x1 (i 0)) (i 1)

/-- which the call itself writes widened to 32 bits. -/
def mask32Of (x0 : FVec Ideal S262144x65 .f32) (x1 : IVec S16 32) : S262144x256.Idx → BitVec 32 :=
  fun i => (maskOf x0 x1 i).setWidth 32

/-! ## What a grid point writes back -/

theorem flushed8_eq (c : Dev nD) (t : Fin cfg0.N) :
    (dats m 0 c).flushed 8 t = ((cfg0.win 8).blk t).view.read (Elt Ideal)
      (probsOf (aX m c) (aT m c) (aW1 m c) (aB1 m c) (aW2 m c) (aB2 m c) (aW3 m c) (aB3 m c)) := by
  show (cfg0.win 8).cut (grid0.coords t) ((dats m 0 c).after 8 t) = _
  rw [after0_8]
  unfold out0_8
  rw [View.canon_unit_zero hz]
  simp only [View.ld_unit_zero (S := S4096x65) hz, View.ld_unit_zero (S := S1x16) hz, View.ld_unit_zero (S := S65x128) hz,
    View.ld_unit_zero (S := S1x128) hz, View.ld_unit_zero (S := S128x64) hz, View.ld_unit_zero (S := S1x64) hz,
    View.ld_unit_zero (S := S64x256) hz, View.ld_unit_zero (S := S1x256) hz]
  funext j
  obtain ⟨p, q, rfl⟩ : ∃ (p : Fin 4096) (q : Fin 256), j = ix2 p q := ⟨j 0, j 1, eq_ix2 j⟩
  show k0_pay2 (F := Ideal) (k0_pay4 (b0 m c t) (b1 m c t)) (k0_pay5 (b0 m c t) (b2 m c t) (b3 m c t) (b4 m c t) (b5 m c t)) (b6 m c t) (b7 m c t) (ix2 p q)
      = probsOf (aX m c) (aT m c) (aW1 m c) (aB1 m c) (aW2 m c) (aB2 m c) (aW3 m c) (aB3 m c) (((cfg0.win 8).blk t).view.emb (ix2 p q))
  obtain ⟨-, -, -, -, e81, -⟩ := idx_facts t
  have htab : ∀ k : Fin 16, b1 m c t (ix2 0 k) = ((((fun k : Fin 16 => aT m c (ix1 k)) k).toInt : ℝ) : EReal) :=
    fun k => (congrFun (b1_eq m c t) (ix2 0 k)).trans (V_v4_apply m c k)
  have hq : (((cfg0.win 8).blk t).view.emb (ix2 p q)) 1 = q :=
    Fin.ext (by show win0_8.index t (1 : Fin 2) * 256 + 1 * q.val = q.val; omega)
  have hrow : KernelPayload.brow (b0 m c t) p = xrow (aX m c) ((((cfg0.win 8).blk t).view.emb (ix2 p q)) 0) :=
    funext fun k => b0_apply m c t p q k
  have hw1 : (fun (j : Fin 128) (k : Fin 65) => b2 m c t (ix2 k j)) = fun j k => aW1 m c (ix2 j k) :=
    funext fun j => funext fun k => (congrFun (b2_eq m c t) (ix2 k j)).trans (V_v6_apply m c k j)
  have hc1 : (fun j : Fin 128 => b3 m c t (ix2 0 j)) = fun j => aB1 m c (ix1 j) :=
    funext fun j => (congrFun (b3_eq m c t) (ix2 0 j)).trans (V_v0_apply m c j)
  have hw2 : (fun (j : Fin 64) (k : Fin 128) => b4 m c t (ix2 k j)) = fun j k => aW2 m c (ix2 j k) :=
    funext fun j => funext fun k => (congrFun (b4_eq m c t) (ix2 k j)).trans (V_v8_apply m c k j)
  have hc2 : (fun j : Fin 64 => b5 m c t (ix2 0 j)) = fun j => aB2 m c (ix1 j) :=
    funext fun j => (congrFun (b5_eq m c t) (ix2 0 j)).trans (V_v1_apply m c j)
  have hw3 : (fun (j : Fin 256) (k : Fin 64) => b6 m c t (ix2 k j)) = fun j k => aW3 m c (ix2 j k) :=
    funext fun j => funext fun k => (congrFun (b6_eq m c t) (ix2 k j)).trans (V_v10_apply m c k j)
  have hc3 : (fun j : Fin 256 => b7 m c t (ix2 0 j)) = fun j => aB3 m c (ix1 j) :=
    funext fun j => (congrFun (b7_eq m c t) (ix2 0 j)).trans (V_v2_apply m c j)
  rw [KernelPayload.pay_probs (b0 m c t) (b1 m c t) (b2 m c t) (b3 m c t) (b4 m c t) (b5 m c t) (b6 m c t) (b7 m c t)
    (fun k => aT m c (ix1 k)) htab p q]
  show Spec.prob (Spec.logits (KernelPayload.brow (b0 m c t) p) (fun j k => b2 m c t (ix2 k j)) (fun j => b3 m c t (ix2 0 j))
        (fun j k => b4 m c t (ix2 k j)) (fun j => b5 m c t (ix2 0 j)) (fun j k => b6 m c t (ix2 k j)) (fun j => b7 m c t (ix2 0 j)))
      (aT m c (ix1 (Spec.kerIdx (Spec.dimIdx (KernelPayload.brow (b0 m c t) p))))) q
    = Spec.prob (Spec.logits (xrow (aX m c) ((((cfg0.win 8).blk t).view.emb (ix2 p q)) 0)) (fun j k => aW1 m c (ix2 j k)) (fun j => aB1 m c (ix1 j))
        (fun j k => aW2 m c (ix2 j k)) (fun j => aB2 m c (ix1 j)) (fun j k => aW3 m c (ix2 j k)) (fun j => aB3 m c (ix1 j)))
      (aT m c (ix1 (Spec.kerIdx (Spec.dimIdx (xrow (aX m c) ((((cfg0.win 8).blk t).view.emb (ix2 p q)) 0))))))
      ((((cfg0.win 8).blk t).view.emb (ix2 p q)) 1)
  rw [hw1, hc1, hw2, hc2, hw3, hc3, hrow, hq]

/-- Row `p` of the input block at point `t` is row `r` of the input, for `r` the row the point's blocks put `p` at. -/
theorem b0_row (c : Dev nD) (t : Fin cfg0.N) (p : Fin 4096) (k : Fin 65) (r : Fin 262144)
    (hr : r.val = win0_8.index t (0 : Fin 2) * 4096 + p.val) : b0 m c t (ix2 p k) = aX m c (ix2 r k) := by
  obtain ⟨e0, e1, -⟩ := idx_facts t
  show V m c main_arg0 (((cfg0.win 0).blk t).view.emb (ix2 p k)) = _
  rw [V_main_arg0]
  refine congrArg (aX m c) ?_
  funext a; apply Fin.ext
  match a with
  | ⟨0, _⟩ => show win0_0.index t (0 : Fin 2) * 4096 + 1 * p.val = r.val; omega
  | ⟨1, _⟩ => show win0_0.index t (1 : Fin 2) * 65 + 1 * k.val = k.val; omega

theorem flushed9_eq (c : Dev nD) (t : Fin cfg0.N) :
    (dats m 0 c).flushed 9 t = ((cfg0.win 9).blk t).view.read (Elt Ideal) (mask32Of (aX m c) (aT m c)) := by
  show (cfg0.win 9).cut (grid0.coords t) ((dats m 0 c).after 9 t) = _
  rw [after0_9]
  unfold out0_9
  rw [View.canon_unit_zero hz]
  simp only [View.ld_unit_zero (S := S4096x65) hz, View.ld_unit_zero (S := S1x16) hz]
  funext j
  obtain ⟨p, q, rfl⟩ : ∃ (p : Fin 4096) (q : Fin 256), j = ix2 p q := ⟨j 0, j 1, eq_ix2 j⟩
  show k0_pay3 (F := Ideal) (k0_pay4 (b0 m c t) (b1 m c t)) (ix2 p q)
      = mask32Of (aX m c) (aT m c) (((cfg0.win 9).blk t).view.emb (ix2 p q))
  obtain ⟨-, -, e90, e91, -⟩ := idx_facts t
  have htab : ∀ k : Fin 16, b1 m c t (ix2 0 k) = ((((fun k : Fin 16 => aT m c (ix1 k)) k).toInt : ℝ) : EReal) :=
    fun k => (congrFun (b1_eq m c t) (ix2 0 k)).trans (V_v4_apply m c k)
  have hq : (((cfg0.win 9).blk t).view.emb (ix2 p q)) 1 = q :=
    Fin.ext (by show win0_9.index t (1 : Fin 2) * 256 + 1 * q.val = q.val; omega)
  have hrow : KernelPayload.brow (b0 m c t) p = xrow (aX m c) ((((cfg0.win 9).blk t).view.emb (ix2 p q)) 0) :=
    funext fun k => b0_row m c t p k _ (by show win0_9.index t (0 : Fin 2) * 4096 + 1 * p.val = win0_8.index t (0 : Fin 2) * 4096 + p.val; omega)
  rw [KernelPayload.pay_mask (b0 m c t) (b1 m c t) (fun k => aT m c (ix1 k)) htab p q]
  show (Spec.maskBit (aT m c (ix1 (Spec.kerIdx (Spec.dimIdx (KernelPayload.brow (b0 m c t) p))))) q).setWidth 32
    = (Spec.maskBit (aT m c (ix1 (Spec.kerIdx (Spec.dimIdx (xrow (aX m c) ((((cfg0.win 9).blk t).view.emb (ix2 p q)) 0))))))
        ((((cfg0.win 9).blk t).view.emb (ix2 p q)) 1)).setWidth 32
  rw [hrow, hq]

/-! ## The arrays after the run -/

/-- An index of the first result is in point `t`'s block iff each coordinate is in the block's range on its axis. -/
theorem mem_blk8 (t : Fin cfg0.N) (i : S262144x256.Idx) :
    i ∈ ((cfg0.win 8).blk t).view.set ↔ ∀ a : Fin 2, win0_8.index t a * S4096x256.size a ≤ (i a).val ∧ (i a).val < win0_8.index t a * S4096x256.size a + S4096x256.size a := by
  show i ∈ ((View.whole main_v11_0).slice (win0_8.rect t)).set ↔ _
  rw [View.set_slice_whole, Rect.mem_set_unit]
  exact Iff.rfl

theorem mem_blk9 (t : Fin cfg0.N) (i : S262144x256.Idx) :
    i ∈ ((cfg0.win 9).blk t).view.set ↔ ∀ a : Fin 2, win0_9.index t a * S4096x256.size a ≤ (i a).val ∧ (i a).val < win0_9.index t a * S4096x256.size a + S4096x256.size a := by
  show i ∈ ((View.whole main_v11_1).slice (win0_9.rect t)).set ↔ _
  rw [View.set_slice_whole, Rect.mem_set_unit]
  exact Iff.rfl

/-- Every index of the first result is in the block of the point that handles its 4096 rows. -/
theorem cover8 (i : S262144x256.Idx) : ∃ t : Fin cfg0.N, (cfg0.win 8).flush t = true ∧ i ∈ ((cfg0.win 8).blk t).view.set := by
  have hi0 : (i 0).val < 262144 := (i 0).isLt
  have hi1 : (i 1).val < 256 := (i 1).isLt
  obtain ⟨t, ht, -⟩ := idx_onto ⟨(i 0).val / 4096, by omega⟩
  have q0 : win0_8.index t (0 : Fin 2) = (i 0).val / 4096 := congrFun ht 0
  have q1 : win0_8.index t (1 : Fin 2) = 0 := congrFun ht 1
  refine ⟨t, flush0_8 t, ?_⟩
  rw [mem_blk8]
  intro a
  match a with
  | ⟨0, _⟩ => show win0_8.index t (0 : Fin 2) * 4096 ≤ (i 0).val ∧ (i 0).val < win0_8.index t (0 : Fin 2) * 4096 + 4096; omega
  | ⟨1, _⟩ => show win0_8.index t (1 : Fin 2) * 256 ≤ (i 1).val ∧ (i 1).val < win0_8.index t (1 : Fin 2) * 256 + 256; omega

theorem cover9 (i : S262144x256.Idx) : ∃ t : Fin cfg0.N, (cfg0.win 9).flush t = true ∧ i ∈ ((cfg0.win 9).blk t).view.set := by
  have hi0 : (i 0).val < 262144 := (i 0).isLt
  have hi1 : (i 1).val < 256 := (i 1).isLt
  obtain ⟨t, -, ht⟩ := idx_onto ⟨(i 0).val / 4096, by omega⟩
  have q0 : win0_9.index t (0 : Fin 2) = (i 0).val / 4096 := congrFun ht 0
  have q1 : win0_9.index t (1 : Fin 2) = 0 := congrFun ht 1
  refine ⟨t, flush0_9 t, ?_⟩
  rw [mem_blk9]
  intro a
  match a with
  | ⟨0, _⟩ => show win0_9.index t (0 : Fin 2) * 4096 ≤ (i 0).val ∧ (i 0).val < win0_9.index t (0 : Fin 2) * 4096 + 4096; omega
  | ⟨1, _⟩ => show win0_9.index t (1 : Fin 2) * 256 ≤ (i 1).val ∧ (i 1).val < win0_9.index t (1 : Fin 2) * 256 + 256; omega

/-- The first result array after the run. -/
theorem final8 (c : Dev nD) : (dats m 0 c).arrAt 8 cfg0.N
    = probsOf (aX m c) (aT m c) (aW1 m c) (aB1 m c) (aW2 m c) (aB2 m c) (aW3 m c) (aB3 m c) :=
  (dats m 0 c).arrAt_eq_of_cover 8 _ (fun t _ => flushed8_eq m c t) cover8

/-- The widened mask array after the run. -/
theorem final9 (c : Dev nD) : (dats m 0 c).arrAt 9 cfg0.N = mask32Of (aX m c) (aT m c) :=
  (dats m 0 c).arrAt_eq_of_cover 9 _ (fun t _ => flushed9_eq m c t) cover9

/-! ## The host lines after the call -/

theorem tail_mask (c : Dev nD) :
    Pipeline.afterTail₀ cfgs (dats m) 0 (V0 m) [hostOps1] c main_v14 = maskOf (aX m c) (aT m c) := by
  unfold Pipeline.afterTail₀
  show StableHlo.after hostOps1 _ (Proc.devRef .tc main_v14) = _
  after_results
  have hA : Pipeline.withArrays (cfgs 0).spec c (V0 m c) (fun w => (dats m 0 c).arrAt w (cfgs 0).N) (Proc.devRef .tc main_v11_1)
      = mask32Of (aX m c) (aT m c) :=
    (Pipeline.withArrays_arr spec0 launch0.win.arr_inj c _ _ 9).trans (final9 m c)
  rw [hA]
  funext i
  -- a one-bit word widened to 32 bits differs from zero exactly when it is 1
  show IntOp.cmpi .ne ((maskOf (aX m c) (aT m c) i).setWidth 32) (0#32) = maskOf (aX m c) (aT m c) i
  generalize maskOf (aX m c) (aT m c) i = b
  revert b
  decide

/-! ## The run, read -/

/-- Every weakly fair execution of the kernel's program ends with the first result at each row's softmax, the second at
    each row's keep bits, and the arguments unchanged. -/
theorem run : θ_run defs (onTc (τ := τ) (main (F := Ideal))) ⟨m, fun _ => 0, ρ⟩ fun r => ∀ c : Dev nD,
      r.2.mem ((c : Thread nD τ).loc main_v11_0) = probsOf (aX m c) (aT m c) (aW1 m c) (aB1 m c) (aW2 m c) (aB2 m c) (aW3 m c) (aB3 m c)
      ∧ r.2.mem ((c : Thread nD τ).loc main_v14) = maskOf (aX m c) (aT m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 8).trans (final8 m c),
      ((h c).2 main_v14 (Pipeline.mem_restRefs_of main_v14 (by decide) (by decide))).trans (tail_mask m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelValue

end
-- ==== Proof.RefValue.lean ====
/-
  The reference's two results read index by index: at row `r`, column `c` they are the softmax of the filled logits of
  row `r` and its keep bit, for the table word at the reference's reading of the row's index word.
-/
import proofs.«431117_j59459527246286_3_alg».proof.Proof.Gen.ReferenceIdeal.Run
import proofs.«431117_j59459527246286_3_alg».proof.Proof.Gen.ReferenceIdeal.Read
import proofs.«431117_j59459527246286_3_alg».proof.Proof.Spec
import Idealize.ShloMosaic.Lib.StableHlo.Predicate
import Idealize.ShloMosaic.PureOps.Reduce

noncomputable section

open scoped BigOperators

namespace Cert.RefValue

open Cert.ReferenceIdeal Cert.ReferenceIdeal.Gen Cert.ReferenceIdeal.Read Idealize.ShloMosaic Idealize.ShloMosaic.ValueIdx

/-- Row `r` of the input. -/
abbrev xrow (x0 : FVec Ideal S262144x65 .f32) (r : Fin 262144) : Fin 65 → EReal := fun k => x0 (ix2 r k)

/-- The table word the reference's gather reads for row `r`. -/
abbrev refScale (x0 : FVec Ideal S262144x65 .f32) (x1 : IVec S16 32) (r : Fin 262144) : BitVec 32 :=
  x1 (ix1 (Spec.refIdx (Spec.dimIdx (xrow x0 r))))

/-- The row's logits from the reference's arguments (weights as given: output unit first). -/
abbrev refLogits (x0 : FVec Ideal S262144x65 .f32) (x2 : FVec Ideal S128x65 .f32) (x3 : FVec Ideal S128 .f32)
    (x4 : FVec Ideal S64x128 .f32) (x5 : FVec Ideal S64 .f32) (x6 : FVec Ideal S256x64 .f32) (x7 : FVec Ideal S256 .f32)
    (r : Fin 262144) : Fin 256 → EReal :=
  Spec.logits (xrow x0 r) (fun j k => x2 (ix2 j k)) (fun j => x3 (ix1 j)) (fun j k => x4 (ix2 j k)) (fun j => x5 (ix1 j))
    (fun c k => x6 (ix2 c k)) (fun c => x7 (ix1 c))

/-! ## The index word and the table word -/

/-- The row's index word: the last entry of the row, truncated. -/
private theorem v2_at (x0 : FVec Ideal S262144x65 .f32) (r : Fin 262144) :
    val_main_v2 (F := Ideal) x0 (ix1 r) = Spec.dimIdx (xrow x0 r) := by
  rw [val_main_v2_apply, val_main_v1_apply, val_main_v0_apply]
  have e : idx_main_v0 (idx_main_v1 (ix1 r)) = ix2 r (64 : Fin 65) := funext fun a => Fin.ext (by
    match a with
    | ⟨0, _⟩ => exact Nat.div_one _
    | ⟨1, _⟩ => rfl)
  rw [e]
  rfl

/-- A negative index word has 16 added once. -/
private theorem v24_at (x0 : FVec Ideal S262144x65 .f32) (r : Fin 262144) :
    val_main_v24 (F := Ideal) x0 (ix1 r)
      = Scalar.select (IntOp.cmpi .slt (Spec.dimIdx (xrow x0 r)) 0#32) (IntOp.addi (Spec.dimIdx (xrow x0 r)) 16#32)
          (Spec.dimIdx (xrow x0 r)) := by
  rw [val_main_v24_apply, val_main_v21_apply, val_main_v23_apply, val_main_v20_apply, val_main_c_apply,
    val_main_v22_apply, val_main_c_0_apply, v2_at]

/-- The column of start indices at row `r` is that word. -/
private theorem v25_at (x0 : FVec Ideal S262144x65 .f32) (r : Fin 262144) :
    val_main_v25 (F := Ideal) x0 (StableHlo.Predicate.ixP r)
      = Scalar.select (IntOp.cmpi .slt (Spec.dimIdx (xrow x0 r)) 0#32) (IntOp.addi (Spec.dimIdx (xrow x0 r)) 16#32)
          (Spec.dimIdx (xrow x0 r)) := by
  rw [val_main_v25_apply]
  have e : idx_main_v25 (StableHlo.Predicate.ixP r) = ix1 r := funext fun a => Fin.ext (by
    match a with
    | ⟨0, _⟩ => rfl)
  rw [e, v24_at]

/-- The gather reads the table at the index word, read signed and clamped into the table. -/
private theorem v26_at (x0 : FVec Ideal S262144x65 .f32) (x1 : IVec S16 32) (r : Fin 262144) :
    val_main_v26 (F := Ideal) x0 x1 (ix1 r) = refScale x0 x1 r := by
  unfold val_main_v26
  rw [Shape.Idx.eq_ofFin (ix1 r)]
  refine (StableHlo.Predicate.gather_take gather_S16_S262144x1_S262144_n_0_n_n_0_1_1 rfl rfl rfl rfl x1
    (val_main_v25 (F := Ideal) x0) r (by decide)).trans ?_
  refine congrArg x1 (funext fun a => Fin.ext ?_)
  obtain rfl : a = 0 := Subsingleton.elim _ _
  exact congrArg (fun w : BitVec 32 => min w.toInt.toNat 15) (v25_at x0 r)

/-- The keep bit at row `r`, column `c`. -/
private theorem v32_at (x0 : FVec Ideal S262144x65 .f32) (x1 : IVec S16 32) (r : Fin 262144) (c : Fin 256) :
    val_main_v32 (F := Ideal) x0 x1 (ix2 r c) = Spec.maskBit (refScale x0 x1 r) c := by
  rw [val_main_v32_apply, val_main_v30_apply, val_main_v28_apply, val_main_v27_apply, val_main_v31_apply,
    val_main_v29_apply]
  have e : idx_main_v29 (idx_main_v31 (ix2 r c)) = ix1 r := funext fun a => Fin.ext (by
    match a with
    | ⟨0, _⟩ => rfl)
  rw [e, v26_at]
  rfl

/-- The reference's second result (the keep mask) at an index. -/
theorem ref_mask (x0 : FVec Ideal S262144x65 .f32) (x1 : IVec S16 32) (i : S262144x256.Idx) :
    val_main_v32 (F := Ideal) x0 x1 i = Spec.maskBit (refScale x0 x1 (i 0)) (i 1) := by
  exact (congrArg (val_main_v32 (F := Ideal) x0 x1) (eq_ix2 i)).trans (v32_at x0 x1 (i 0) (i 1))

/-! ## The three affine layers -/

/-- The first hidden layer at row `r`, unit `j`. -/
private theorem v8_at (x0 : FVec Ideal S262144x65 .f32) (x2 : FVec Ideal S128x65 .f32) (x3 : FVec Ideal S128 .f32)
    (r : Fin 262144) (j : Fin 128) :
    val_main_v8 (F := Ideal) x0 x2 x3 (ix2 r j)
      = Spec.hid1 (xrow x0 r) (fun j k => x2 (ix2 j k)) (fun j => x3 (ix1 j)) j := by
  rw [val_main_v8_apply, val_main_v7_apply, val_main_v4_apply, val_main_v6_apply, val_main_v5_apply,
    val_main_call0_v0_apply, val_main_call0_cst_apply]
  have el : ∀ k : Fin 65, lidx_main_v4 (ix2 r j) k = ix2 r k := fun k => funext fun a => Fin.ext (by
    match a with
    | ⟨0, _⟩ => rfl
    | ⟨1, _⟩ => rfl)
  have er : ∀ k : Fin 65, val_main_v3 (F := Ideal) x2 (ridx_main_v4 (ix2 r j) k) = x2 (ix2 j k) := fun k => by
    rw [val_main_v3_apply]
    exact congrArg x2 (funext fun a => Fin.ext (by
      match a with
      | ⟨0, _⟩ => rfl
      | ⟨1, _⟩ => rfl))
  have eb : idx_main_v5 (idx_main_v6 (ix2 r j)) = ix1 j := funext fun a => Fin.ext (by
    match a with
    | ⟨0, _⟩ => rfl)
  rw [eb]
  refine congrArg (fun s : EReal => max (s + x3 (ix1 j)) Spec.zeroW) (Finset.sum_congr rfl fun k _ => ?_)
  rw [el, er]

/-- The second hidden layer at row `r`, unit `j`. -/
private theorem v14_at (x0 : FVec Ideal S262144x65 .f32) (x2 : FVec Ideal S128x65 .f32) (x3 : FVec Ideal S128 .f32)
    (x4 : FVec Ideal S64x128 .f32) (x5 : FVec Ideal S64 .f32) (r : Fin 262144) (j : Fin 64) :
    val_main_v14 (F := Ideal) x0 x2 x3 x4 x5 (ix2 r j)
      = Spec.hid2 (Spec.hid1 (xrow x0 r) (fun j k => x2 (ix2 j k)) (fun j => x3 (ix1 j)))
          (fun j k => x4 (ix2 j k)) (fun j => x5 (ix1 j)) j := by
  rw [val_main_v14_apply, val_main_v13_apply, val_main_v10_apply, val_main_v12_apply, val_main_v11_apply,
    val_main_call1_v0_apply, val_main_call1_cst_apply]
  have el : ∀ k : Fin 128, lidx_main_v10 (ix2 r j) k = ix2 r k := fun k => funext fun a => Fin.ext (by
    match a with
    | ⟨0, _⟩ => rfl
    | ⟨1, _⟩ => rfl)
  have er : ∀ k : Fin 128, val_main_v9 (F := Ideal) x4 (ridx_main_v10 (ix2 r j) k) = x4 (ix2 j k) := fun k => by
    rw [val_main_v9_apply]
    exact congrArg x4 (funext fun a => Fin.ext (by
      match a with
      | ⟨0, _⟩ => rfl
      | ⟨1, _⟩ => rfl))
  have eb : idx_main_v11 (idx_main_v12 (ix2 r j)) = ix1 j := funext fun a => Fin.ext (by
    match a with
    | ⟨0, _⟩ => rfl)
  rw [eb]
  refine congrArg (fun s : EReal => max (s + x5 (ix1 j)) Spec.zeroW) (Finset.sum_congr rfl fun k _ => ?_)
  rw [el, er, v8_at]

/-- The logit at row `r`, column `c`. -/
private theorem v19_at (x0 : FVec Ideal S262144x65 .f32) (x2 : FVec Ideal S128x65 .f32) (x3 : FVec Ideal S128 .f32)
    (x4 : FVec Ideal S64x128 .f32) (x5 : FVec Ideal S64 .f32) (x6 : FVec Ideal S256x64 .f32) (x7 : FVec Ideal S256 .f32)
    (r : Fin 262144) (c : Fin 256) :
    val_main_v19 (F := Ideal) x0 x2 x3 x4 x5 x6 x7 (ix2 r c) = refLogits x0 x2 x3 x4 x5 x6 x7 r c := by
  rw [val_main_v19_apply, val_main_v16_apply, val_main_v18_apply, val_main_v17_apply]
  have el : ∀ k : Fin 64, lidx_main_v16 (ix2 r c) k = ix2 r k := fun k => funext fun a => Fin.ext (by
    match a with
    | ⟨0, _⟩ => rfl
    | ⟨1, _⟩ => rfl)
  have er : ∀ k : Fin 64, val_main_v15 (F := Ideal) x6 (ridx_main_v16 (ix2 r c) k) = x6 (ix2 c k) := fun k => by
    rw [val_main_v15_apply]
    exact congrArg x6 (funext fun a => Fin.ext (by
      match a with
      | ⟨0, _⟩ => rfl
      | ⟨1, _⟩ => rfl))
  have eb : idx_main_v17 (idx_main_v18 (ix2 r c)) = ix1 c := funext fun a => Fin.ext (by
    match a with
    | ⟨0, _⟩ => rfl)
  rw [eb]
  refine congrArg (fun s : EReal => s + x7 (ix1 c)) (Finset.sum_congr rfl fun k _ => ?_)
  rw [el, er, v14_at]

/-! ## The filled row and its softmax -/

/-- The filled logit at row `r`, column `c`. -/
private theorem v33_at (x0 : FVec Ideal S262144x65 .f32) (x1 : IVec S16 32) (x2 : FVec Ideal S128x65 .f32) (x3 : FVec Ideal S128 .f32)
    (x4 : FVec Ideal S64x128 .f32) (x5 : FVec Ideal S64 .f32) (x6 : FVec Ideal S256x64 .f32) (x7 : FVec Ideal S256 .f32)
    (r : Fin 262144) (c : Fin 256) :
    val_main_v33 (F := Ideal) x0 x1 x2 x3 x4 x5 x6 x7 (ix2 r c)
      = Spec.masked (refLogits x0 x2 x3 x4 x5 x6 x7 r) (refScale x0 x1 r) c := by
  rw [val_main_v33_apply, v32_at, v19_at, val_main_call2_v0_apply, val_main_cst_apply]
  rfl

/-- Taking the maximum with −∞ changes nothing. -/
private theorem max_ninfW (y : EReal) : max Spec.ninfW y = y := by
  simp [Spec.ninfW, Ideal.ofBits, Ideal.ieee]

/-- The fold of the row maximum at row `r`. -/
private theorem v34_at (x0 : FVec Ideal S262144x65 .f32) (x1 : IVec S16 32) (x2 : FVec Ideal S128x65 .f32) (x3 : FVec Ideal S128 .f32)
    (x4 : FVec Ideal S64x128 .f32) (x5 : FVec Ideal S64 .f32) (x6 : FVec Ideal S256x64 .f32) (x7 : FVec Ideal S256 .f32)
    (r : Fin 262144) :
    val_main_v34 (F := Ideal) x0 x1 x2 x3 x4 x5 x6 x7 (ix1 r)
      = Spec.rowMax (refLogits x0 x2 x3 x4 x5 x6 x7 r) (refScale x0 x1 r) := by
  have h : S262144x256.Reduces [1] S262144 := by decide
  unfold val_main_v34
  rw [Host.reduce_eq_fold_single FloatOps.maximumf _ _ _ h _ (ix1 r)]
  unfold Spec.rowMax
  refine Finset.fold_congr fun k _ => ?_
  have e : h.lift (ix1 r) k = (ix2 r (k : Fin 256) : S262144x256.Idx) := funext fun a => Fin.ext (by
    match a with
    | ⟨0, _⟩ => rfl
    | ⟨1, _⟩ => rfl)
  exact (congrArg (val_main_v33 (F := Ideal) x0 x1 x2 x3 x4 x5 x6 x7) e).trans
    (v33_at x0 x1 x2 x3 x4 x5 x6 x7 r k)

/-- The row maximum at row `r`. -/
private theorem v36_at (x0 : FVec Ideal S262144x65 .f32) (x1 : IVec S16 32) (x2 : FVec Ideal S128x65 .f32) (x3 : FVec Ideal S128 .f32)
    (x4 : FVec Ideal S64x128 .f32) (x5 : FVec Ideal S64 .f32) (x6 : FVec Ideal S256x64 .f32) (x7 : FVec Ideal S256 .f32)
    (r : Fin 262144) :
    val_main_v36 (F := Ideal) x0 x1 x2 x3 x4 x5 x6 x7 (ix1 r)
      = Spec.rowMax (refLogits x0 x2 x3 x4 x5 x6 x7 r) (refScale x0 x1 r) := by
  rw [val_main_v36_apply, val_main_v35_apply, val_main_cst_2_apply, v34_at]
  exact max_ninfW _

/-- The shifted exponential at row `r`, column `c`. -/
private theorem v40_at (x0 : FVec Ideal S262144x65 .f32) (x1 : IVec S16 32) (x2 : FVec Ideal S128x65 .f32) (x3 : FVec Ideal S128 .f32)
    (x4 : FVec Ideal S64x128 .f32) (x5 : FVec Ideal S64 .f32) (x6 : FVec Ideal S256x64 .f32) (x7 : FVec Ideal S256 .f32)
    (r : Fin 262144) (c : Fin 256) :
    val_main_v40 (F := Ideal) x0 x1 x2 x3 x4 x5 x6 x7 (ix2 r c)
      = Spec.ex (refLogits x0 x2 x3 x4 x5 x6 x7 r) (refScale x0 x1 r) c := by
  rw [val_main_v40_apply, val_main_v39_apply, v33_at, val_main_v38_apply, val_main_v37_apply]
  have e : idx_main_v37 (idx_main_v38 (ix2 r c)) = ix1 r := funext fun a => Fin.ext (by
    match a with
    | ⟨0, _⟩ => rfl)
  rw [e, v36_at]
  rfl

/-- The sum of the row's shifted exponentials. -/
private theorem v41_at (x0 : FVec Ideal S262144x65 .f32) (x1 : IVec S16 32) (x2 : FVec Ideal S128x65 .f32) (x3 : FVec Ideal S128 .f32)
    (x4 : FVec Ideal S64x128 .f32) (x5 : FVec Ideal S64 .f32) (x6 : FVec Ideal S256x64 .f32) (x7 : FVec Ideal S256 .f32)
    (r : Fin 262144) :
    val_main_v41 (F := Ideal) x0 x1 x2 x3 x4 x5 x6 x7 (ix1 r)
      = ∑ c' : Fin 256, Spec.ex (refLogits x0 x2 x3 x4 x5 x6 x7 r) (refScale x0 x1 r) c' := by
  rw [val_main_v41_apply, val_main_cst_3_apply]
  show Ideal.ofBits .f32 0x00000000#32 + _ = _
  rw [Ideal.ofBits_zero_f32, zero_add]
  refine Finset.sum_congr rfl fun k _ => ?_
  have e : idx_main_v41 (ix1 r) k = ix2 r k := funext fun a => Fin.ext (by
    match a with
    | ⟨0, _⟩ => rfl
    | ⟨1, _⟩ => rfl)
  rw [e, v40_at]

/-- The probability at row `r`, column `c`. -/
private theorem v44_at (x0 : FVec Ideal S262144x65 .f32) (x1 : IVec S16 32) (x2 : FVec Ideal S128x65 .f32) (x3 : FVec Ideal S128 .f32)
    (x4 : FVec Ideal S64x128 .f32) (x5 : FVec Ideal S64 .f32) (x6 : FVec Ideal S256x64 .f32) (x7 : FVec Ideal S256 .f32)
    (r : Fin 262144) (c : Fin 256) :
    val_main_v44 (F := Ideal) x0 x1 x2 x3 x4 x5 x6 x7 (ix2 r c)
      = Spec.prob (refLogits x0 x2 x3 x4 x5 x6 x7 r) (refScale x0 x1 r) c := by
  rw [val_main_v44_apply, v40_at, val_main_v43_apply, val_main_v42_apply]
  have e : idx_main_v42 (idx_main_v43 (ix2 r c)) = ix1 r := funext fun a => Fin.ext (by
    match a with
    | ⟨0, _⟩ => rfl)
  rw [e, v41_at]
  rfl

/-- The reference's first result (the probabilities) at an index. -/
theorem ref_probs (x0 : FVec Ideal S262144x65 .f32) (x1 : IVec S16 32) (x2 : FVec Ideal S128x65 .f32) (x3 : FVec Ideal S128 .f32)
    (x4 : FVec Ideal S64x128 .f32) (x5 : FVec Ideal S64 .f32) (x6 : FVec Ideal S256x64 .f32) (x7 : FVec Ideal S256 .f32)
    (i : S262144x256.Idx) :
    val_main_v44 (F := Ideal) x0 x1 x2 x3 x4 x5 x6 x7 i
      = Spec.prob (refLogits x0 x2 x3 x4 x5 x6 x7 (i 0)) (refScale x0 x1 (i 0)) (i 1) := by
  exact (congrArg (val_main_v44 (F := Ideal) x0 x1 x2 x3 x4 x5 x6 x7) (eq_ix2 i)).trans
    (v44_at x0 x1 x2 x3 x4 x5 x6 x7 (i 0) (i 1))

end Cert.RefValue

end
-- ==== Proof.PreDecode.lean ====
/-
  What the precondition says about each row's index word: it lies in `[0, 16)`, the range of the table it indexes; and
  on that range the reference's reading of the word (wrap a negative index, then clamp) and the kernel's (clamp) are the
  same table position.
-/
import proofs.«431117_j59459527246286_3_alg».proof.Pre_finite_inputs
import proofs.«431117_j59459527246286_3_alg».proof.Proof.Spec
import Idealize.ShloMosaic.Lib.ReduceAll
import Idealize.ShloMosaic.Lib.StableHlo.Predicate
import Idealize.ShloMosaic.Lib.Pipeline.Value

noncomputable section

namespace Cert.PreDecode

open Cert.Pre_finite_inputs Idealize.ShloMosaic Idealize.ShloMosaic.ValueIdx

/-- On `[0, 16)` the two readings of an index word agree. -/
theorem refIdx_eq_kerIdx (d : BitVec 32) (h0 : 0 ≤ d.toInt) (h1 : d.toInt < 16) : Spec.refIdx d = Spec.kerIdx d := by
  -- the word is not negative, so the reference adds nothing to it
  have hneg : ¬ (d.slt 0#32 = true) := by
    rw [BitVec.slt_iff_toInt_lt]
    have : (0#32 : BitVec 32).toInt = 0 := by decide
    omega
  -- and it does not exceed 15, so neither clamp of the kernel moves it
  have hbig : ¬ ((15#32 : BitVec 32).slt d = true) := by
    rw [BitVec.slt_iff_toInt_lt]
    have : (15#32 : BitVec 32).toInt = 15 := by decide
    omega
  have href : Scalar.select (IntOp.cmpi .slt d 0#32) (IntOp.addi d 16#32) d = d := by
    unfold Scalar.select IntOp.cmpi
    rw [Bool.eq_false_iff.2 hneg]
    rfl
  have hker : Spec.kerWord d = d := by
    unfold Spec.kerWord IntOp.maxsi IntOp.minsi
    rw [if_neg hneg, if_neg hbig]
  -- a nonnegative signed value is the unsigned one
  have hnat : d.toInt.toNat = d.toNat := by
    have := BitVec.toInt_eq_toNat_cond d
    have := d.isLt
    omega
  unfold Spec.refIdx Spec.kerIdx
  refine Fin.ext ?_
  show min (Scalar.select (IntOp.cmpi .slt d 0#32) (IntOp.addi d 16#32) d).toInt.toNat 15 = min (Spec.kerWord d).toNat 15
  rw [href, hker, hnat]

/-- The word the precondition compares at row `r`: the slice at column 64, reshaped to a vector and truncated, is the
    row's index word. -/
private theorem word_apply [Cert.Pre_finite_inputs.Facts] (x0 : FVec Ideal S262144x65 .f32) (r : Fin 262144) :
    fptosi 32 (shapeCast S262144 ((extractStridedSlice S262144x1 ![0, 64] · Facts.slices_S262144x65_S262144x1_0_64) x0)
        Facts.shapeCasts_S262144x1_S262144) (ix1 r)
      = Spec.dimIdx (fun k : Fin 65 => x0 (ix2 r k)) := by
  show Ideal.fptosi 32 (shapeCast S262144 (extractStridedSlice S262144x1 ![0, 64] x0 Facts.slices_S262144x65_S262144x1_0_64)
        Facts.shapeCasts_S262144x1_S262144 (ix1 r)) = Ideal.fptosi 32 (x0 (ix2 r 64))
  refine congrArg (Ideal.fptosi 32) ?_
  -- the reshape keeps the row-major position: entry `r` of the vector is entry `(r, 0)` of the column
  refine (shapeCast_apply _ Facts.shapeCasts_S262144x1_S262144 (ix1 r) (ix2 r 0) ?_).trans ?_
  · rewrite [Shape.rowMajor_val_two, Shape.rowMajor_val_one]
    show r.val * 1 + 0 = r.val
    omega
  -- and the column is the array's column 64
  · exact extractStridedSlice_apply ![0, 64] x0 Facts.slices_S262144x65_S262144x1_0_64 (ix2 r 0) (ix2 r 64) (fun a => match a with
      | ⟨0, _⟩ => by show r.val = 0 + r.val; omega
      | ⟨1, _⟩ => by show 64 = 64 + 0; omega)

/-- Under the precondition every row's index word is in `[0, 16)`. -/
theorem idx_in_range [Cert.Pre_finite_inputs.Facts] (x0 : FVec Ideal S262144x65 .f32) (x1 : IVec S16 32) (x2 : FVec Ideal S128x65 .f32)
    (x3 : FVec Ideal S128 .f32) (x4 : FVec Ideal S64x128 .f32) (x5 : FVec Ideal S64 .f32) (x6 : FVec Ideal S256x64 .f32)
    (x7 : FVec Ideal S256 .f32)
    (h : Cert.Pre_finite_inputs.fn (F := Ideal) x0 x1 x2 x3 x4 x5 x6 x7 = fun _ => 1#1) (r : Fin 262144) :
    0 ≤ (Spec.dimIdx (fun k : Fin 65 => x0 (ix2 r k))).toInt ∧ (Spec.dimIdx (fun k : Fin 65 => x0 (ix2 r k))).toInt < 16 := by
  have e := congrFun h ix0
  dsimp only [fn, fn_part1, fn_part2] at e
  -- the predicate is a conjunction; its last two conjuncts are the two range tests
  obtain ⟨e', hlt⟩ := IntOp.andi_eq_one.1 e
  obtain ⟨-, hge⟩ := IntOp.andi_eq_one.1 e'
  haveI : Subsingleton S_.Idx := ⟨fun a b => funext fun d => d.elim0⟩
  -- each is a conjunction over all rows: read it at row `r`
  have gge := Host.reduce_andi_all _ _ _ _ ix0 hge (ix1 r)
  have glt := Host.reduce_andi_all _ _ _ _ ix0 hlt (ix1 r)
  -- a comparison that holds says the signed order of its two words; the second word is the broadcast constant
  have kge := IntOp.cmpi_sge.1 gge
  have klt := IntOp.cmpi_slt.1 glt
  rw [word_apply x0 r] at kge klt
  have c0 : (broadcastInDim S262144 ![] Facts.bcast_S_S262144 (constantI S_ 32 0#32) (ix1 r)).toInt = 0 := by
    show (0#32 : BitVec 32).toInt = 0
    decide
  have c16 : (broadcastInDim S262144 ![] Facts.bcast_S_S262144 (constantI S_ 32 16#32) (ix1 r)).toInt = 16 := by
    show (16#32 : BitVec 32).toInt = 16
    decide
  rw [c0] at kge
  rw [c16] at klt
  exact ⟨kge, klt⟩

end Cert.PreDecode

end
-- ==== Proof.lean ====
/-
  The kernel — a three-layer perceptron on each row of the batch, a row-dependent column mask taken from a 16-entry table,
  and a softmax over the masked logits, run one 4096-row block per grid point — against the same computation written
  with whole-array operations.

  On the extended reals both programs compute, for every row, the same logits (the kernel's three products into a zero
  accumulator and the reference's three contractions are the same sums; a change of float format is the identity), fill
  the columns at or beyond the row's table word with the same constant, and take the same softmax (maximum from −∞,
  shifted exponentials, their sum, the quotient). They differ only in how the row's index word — its last entry,
  truncated — is read into the table: the kernel clamps it into [0, 15]; the reference first adds 16 to a negative word
  and then clamps. On [0, 16), which the precondition states for every row, the two readings are the same position, and
  with it the two keep masks and the two softmax arrays are equal entry by entry. The keep mask is compared as integers
  on the reference's side and as floats on the kernel's; the column numbers and table words are exact as reals, so the
  comparisons agree.
-/
import proofs.«431117_j59459527246286_3_alg».proof.Defs
import proofs.«431117_j59459527246286_3_alg».proof.Proof.Gen.Kernel
import proofs.«431117_j59459527246286_3_alg».proof.Proof.Gen.Kernel.Skeleton
import proofs.«431117_j59459527246286_3_alg».proof.Proof.Gen.Kernel.Launch
import proofs.«431117_j59459527246286_3_alg».proof.Proof.Gen.Kernel.Points
import proofs.«431117_j59459527246286_3_alg».proof.Proof.Gen.Kernel.Frame
import proofs.«431117_j59459527246286_3_alg».proof.Proof.Gen.KernelIdeal
import proofs.«431117_j59459527246286_3_alg».proof.Proof.Gen.KernelIdeal.Skeleton
import proofs.«431117_j59459527246286_3_alg».proof.Proof.Gen.KernelIdeal.Launch
import proofs.«431117_j59459527246286_3_alg».proof.Proof.Gen.KernelIdeal.Points
import proofs.«431117_j59459527246286_3_alg».proof.Proof.Gen.KernelIdeal.Frame
import proofs.«431117_j59459527246286_3_alg».proof.Proof.Gen.ReferenceIdeal
import proofs.«431117_j59459527246286_3_alg».proof.Proof.Gen.ReferenceIdeal.Run
import proofs.«431117_j59459527246286_3_alg».proof.Proof.Gen.ReferenceIdeal.Read
import proofs.«431117_j59459527246286_3_alg».proof.Proof.Gen.Pre_finite_inputs
import proofs.«431117_j59459527246286_3_alg».proof.Proof.KernelValue
import proofs.«431117_j59459527246286_3_alg».proof.Proof.RefValue
import proofs.«431117_j59459527246286_3_alg».proof.Proof.PreDecode
import Idealize.ShloMosaic.Adequacy
import Idealize.ShloMosaic.Init

set_option maxRecDepth 16384

noncomputable section

namespace Cert.Proof

open Idealize.ShloMosaic Idealize.SL.Sem Idealize.ShloMosaic.ValueIdx

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- With every row's index word in `[0, 16)`, the softmax at the reference's reading of the word is the softmax at the
    kernel's: the two readings are the same table position. -/
theorem probs_agree (x0 : FVec Ideal ⟨2, ![262144, 65]⟩ .f32) (x1 : IVec ⟨1, ![16]⟩ 32) (x2 : FVec Ideal ⟨2, ![128, 65]⟩ .f32)
    (x3 : FVec Ideal ⟨1, ![128]⟩ .f32) (x4 : FVec Ideal ⟨2, ![64, 128]⟩ .f32) (x5 : FVec Ideal ⟨1, ![64]⟩ .f32)
    (x6 : FVec Ideal ⟨2, ![256, 64]⟩ .f32) (x7 : FVec Ideal ⟨1, ![256]⟩ .f32)
    (hr : ∀ r : Fin 262144, 0 ≤ (Spec.dimIdx (fun k : Fin 65 => x0 (ix2 r k))).toInt ∧ (Spec.dimIdx (fun k : Fin 65 => x0 (ix2 r k))).toInt < 16)
    (i : (⟨2, ![262144, 256]⟩ : Shape).Idx) :
    Spec.prob (Cert.RefValue.refLogits x0 x2 x3 x4 x5 x6 x7 (i 0)) (Cert.RefValue.refScale x0 x1 (i 0)) (i 1)
      = Cert.KernelValue.probsOf x0 x1 x2 x3 x4 x5 x6 x7 i := by
  have e := Cert.PreDecode.refIdx_eq_kerIdx _ (hr (i 0)).1 (hr (i 0)).2
  show Spec.prob (Cert.RefValue.refLogits x0 x2 x3 x4 x5 x6 x7 (i 0))
      (x1 (ix1 (Spec.refIdx (Spec.dimIdx (fun k : Fin 65 => x0 (ix2 (i 0) k)))))) (i 1)
    = Spec.prob (Cert.KernelValue.rowLogits x0 x2 x3 x4 x5 x6 x7 (i 0))
      (x1 (ix1 (Spec.kerIdx (Spec.dimIdx (fun k : Fin 65 => x0 (ix2 (i 0) k)))))) (i 1)
  rw [e]

/-- Likewise the keep bit. -/
theorem mask_agree (x0 : FVec Ideal ⟨2, ![262144, 65]⟩ .f32) (x1 : IVec ⟨1, ![16]⟩ 32)
    (hr : ∀ r : Fin 262144, 0 ≤ (Spec.dimIdx (fun k : Fin 65 => x0 (ix2 r k))).toInt ∧ (Spec.dimIdx (fun k : Fin 65 => x0 (ix2 r k))).toInt < 16)
    (i : (⟨2, ![262144, 256]⟩ : Shape).Idx) :
    Spec.maskBit (Cert.RefValue.refScale x0 x1 (i 0)) (i 1) = Cert.KernelValue.maskOf x0 x1 i := by
  have e := Cert.PreDecode.refIdx_eq_kerIdx _ (hr (i 0)).1 (hr (i 0)).2
  show Spec.maskBit (x1 (ix1 (Spec.refIdx (Spec.dimIdx (fun k : Fin 65 => x0 (ix2 (i 0) k)))))) (i 1)
    = Spec.maskBit (x1 (ix1 (Spec.kerIdx (Spec.dimIdx (fun k : Fin 65 => x0 (ix2 (i 0) k)))))) (i 1)
  rw [e]

/-- The kernel's run ends with each row's softmax and keep bits at the kernel's reading of the row's index word; the
    reference's with the same at its own reading; under the precondition the two readings are one table position. -/
theorem algebraic : Cert.algebraic_KernelIdeal_ReferenceIdeal := by
  intro m ρ m' ρ' hpre hagree
  refine ⟨_, _, Cert.KernelValue.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7⟩ := hagree c
    rw [(h c).1, Cert.ReferenceIdeal.Read.val_main_v44_eq, a0, a1, a2, a3, a4, a5, a6, a7]
    funext i
    rw [Cert.RefValue.ref_probs]
    exact probs_agree _ _ _ _ _ _ _ _ (Cert.PreDecode.idx_in_range _ _ _ _ _ _ _ _ (hpre c)) i
  · obtain ⟨a0, a1, -⟩ := hagree c
    rw [(h c).2.1, Cert.ReferenceIdeal.Read.val_main_v32_eq, a0, a1]
    funext i
    rw [Cert.RefValue.ref_mask]
    exact mask_agree _ _ (Cert.PreDecode.idx_in_range _ _ _ _ _ _ _ _ (hpre c)) i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
